-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300x512 : Shape := ⟨2, ![300, 512]⟩
abbrev S89700x512 : Shape := ⟨2, ![89700, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S300x512 : S_.BroadcastsInDim S300x512 (![] : Fin 0 → Fin S300x512.rank)
  reducesTo_S300x512_S_d0_1 : S300x512.ReducesTo [0, 1] S_
  h_S_ : 0 < S_.numel
  bcast_S_S89700x512 : S_.BroadcastsInDim S89700x512 (![] : Fin 0 → Fin S89700x512.rank)
  reducesTo_S89700x512_S_d0_1 : S89700x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S128 .f32) (main_arg8 : FVec F S128x4 .f32) (main_arg9 : FVec F S4 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x4 .f32 := Host.absf main_arg8
  let main_cst_14 : FVec F S_ .f32 := constant S_ .f32 0x7F800000#32
  let main_v40 : FVec F S128x4 .f32 := broadcastInDim S128x4 ![] bcast_S_S128x4 main_cst_14
  let main_v41 : IVec S128x4 1 := cmpf .olt main_v39 main_v40
  let main_c_15 : IVec S_ 1 := constantI S_ 1 1#1
  let main_v42 : IVec S_ 1 := (fun x v => Host.reduce IntOp.andi x v reducesTo_S128x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x128 .f32) (main_arg7 : FVec F S128 .f32) (main_arg8 : FVec F S128x4 .f32) (main_arg9 : FVec F S4 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S300x512 .f32) (main_arg1 : FVec F S89700x512 .f32) (main_arg2 : FVec F S512x512 .f32) (main_arg3 : FVec F S512 .f32) (main_arg4 : FVec F S512x512 .f32) (main_arg5 : FVec F S512 .f32) (main_arg6 : FVec F S512x128 .f32) (main_arg7 : FVec F S128 .f32) (main_arg8 : FVec F S128x4 .f32) (main_arg9 : FVec F S4 .f32) : IVec S_ 1 :=
  let main_v0 : FVec F S300x512 .f32 := Host.absf main_arg0
  let main_cst : FVec F S_ .f32 := constant S_ .f32 0x7F800000#32
  let main_v1 : FVec F S300x512 .f32 := broadcastInDim S300x512 ![] bcast_S_S300x512 main_cst
  let main_v2 : IVec S300x512 1 := cmpf .olt main_v0 main_v1
  let main_c : IVec S_ 1 := constantI S_ 1 1#1
  let main_v3 : IVec S_ 1 := (fun x v => Host.reduce IntOp.andi x v reducesTo_S300x512_S_d0_1 h_S_) main_v2 main_c
  let main_v4 : FVec F S89700x512 .f32 := Host.absf main_arg1
  let main_cst_0 : FVec F S_ .f32 := constant S_ .f32 0x7F800000#32
  let main_v5 : FVec F S89700x512 .f32 := broadcastInDim S89700x512 ![] bcast_S_S89700x512 main_cst_0
  let main_v6 : IVec S89700x512 1 := cmpf .olt main_v4 main_v5
  let main_c_1 : IVec S_ 1 := constantI S_ 1 1#1
  let main_v7 : IVec S_ 1 := (fun x v => Host.reduce IntOp.andi x v reducesTo_S89700x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S300x512 : Shape := ⟨2, ![300, 512]⟩
abbrev S89700x512 : Shape := ⟨2, ![89700, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S128x4 : Shape := ⟨2, ![128, 4]⟩
abbrev S4 : Shape := ⟨1, ![4]⟩
abbrev S_ : Shape := ⟨0, ![]⟩
abbrev S90112x512 : Shape := ⟨2, ![90112, 512]⟩
abbrev S1x512 : Shape := ⟨2, ![1, 512]⟩
abbrev S1x128 : Shape := ⟨2, ![1, 128]⟩
abbrev S1x4 : Shape := ⟨2, ![1, 4]⟩
abbrev S90112x4 : Shape := ⟨2, ![90112, 4]⟩
abbrev S1024x512 : Shape := ⟨2, ![1024, 512]⟩
abbrev S1024x4 : Shape := ⟨2, ![1024, 4]⟩
abbrev S1024x128 : Shape := ⟨2, ![1024, 128]⟩
abbrev S1024 : Shape := ⟨1, ![1024]⟩
abbrev S1024x1 : Shape := ⟨2, ![1024, 1]⟩
abbrev S89700x4 : Shape := ⟨2, ![89700, 4]⟩
abbrev S89700x1 : Shape := ⟨2, ![89700, 1]⟩
abbrev S89700 : Shape := ⟨1, ![89700]⟩
abbrev S1x89700 : Shape := ⟨2, ![1, 89700]⟩
abbrev S4x89700 : Shape := ⟨2, ![4, 89700]⟩

abbrev nBuf : Space → Nat
  | .hbm => 57
  | .vmem => 14
  | .smem => 0
  | _ => 0

abbrev bufTy : (tb : Table) → Fin (tcTables nBuf tb) → BufTy
  | .hbm, ⟨0, _⟩ => ⟨S300x512, .f32⟩
  | .hbm, ⟨1, _⟩ => ⟨S89700x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x4, .f32⟩
  | .hbm, ⟨9, _⟩ => ⟨S4, .f32⟩
  | .hbm, ⟨10, _⟩ => ⟨S_, .i32⟩
  | .hbm, ⟨11, _⟩ => ⟨S_, .f32⟩
  | .hbm, ⟨12, _⟩ => ⟨S90112x512, .f32⟩
  | .hbm, ⟨13, _⟩ => ⟨S1x512, .f32⟩
  | .hbm, ⟨14, _⟩ => ⟨S1x512, .f32⟩
  | .hbm, ⟨15, _⟩ => ⟨S1x128, .f32⟩
  | .hbm, ⟨16, _⟩ => ⟨S1x4, .f32⟩
  | .hbm, ⟨17, _⟩ => ⟨S90112x512, .f32⟩
  | .hbm, ⟨18, _⟩ => ⟨S90112x4, .f32⟩
  | .hbm, ⟨19, _⟩ => ⟨S89700x512, .f32⟩
  | .hbm, ⟨20, _⟩ => ⟨S89700x4, .f32⟩
  | .hbm, ⟨21, _⟩ => ⟨S89700x1, .f32⟩
  | .hbm, ⟨22, _⟩ => ⟨S89700, .f32⟩
  | .hbm, ⟨23, _⟩ => ⟨S_, .f32⟩
  | .hbm, ⟨24, _⟩ => ⟨S89700, .f32⟩
  | .hbm, ⟨25, _⟩ => ⟨S89700, .f32⟩
  | .hbm, ⟨26, _⟩ => ⟨S89700x1, .f32⟩
  | .hbm, ⟨27, _⟩ => ⟨S89700, .f32⟩
  | .hbm, ⟨28, _⟩ => ⟨S89700x1, .f32⟩
  | .hbm, ⟨29, _⟩ => ⟨S89700, .f32⟩
  | .hbm, ⟨30, _⟩ => ⟨S89700x1, .f32⟩
  | .hbm, ⟨31, _⟩ => ⟨S89700, .f32⟩
  | .hbm, ⟨32, _⟩ => ⟨S1x89700, .f32⟩
  | .hbm, ⟨33, _⟩ => ⟨S1x89700, .f32⟩
  | .hbm, ⟨34, _⟩ => ⟨S1x89700, .f32⟩
  | .hbm, ⟨35, _⟩ => ⟨S1x89700, .f32⟩
  | .hbm, ⟨36, _⟩ => ⟨S4x89700, .f32⟩
  | .hbm, ⟨37, _⟩ => ⟨S_, .f32⟩
  | .hbm, ⟨38, _⟩ => ⟨S4x89700, .f32⟩
  | .hbm, ⟨39, _⟩ => ⟨S4x89700, .i1⟩
  | .hbm, ⟨40, _⟩ => ⟨S_, .f32⟩
  | .hbm, ⟨41, _⟩ => ⟨S4x89700, .f32⟩
  | .hbm, ⟨42, _⟩ => ⟨S4x89700, .i1⟩
  | .hbm, ⟨43, _⟩ => ⟨S_, .f32⟩
  | .hbm, ⟨44, _⟩ => ⟨S4x89700, .f32⟩
  | .hbm, ⟨45, _⟩ => ⟨S4x89700, .f32⟩
  | .hbm, ⟨46, _⟩ => ⟨S_, .f32⟩
  | .hbm, ⟨47, _⟩ => ⟨S4x89700, .f32⟩
  | .hbm, ⟨48, _⟩ => ⟨S4x89700, .f32⟩
  | .hbm, ⟨49, _⟩ => ⟨S_, .f32⟩
  | .hbm, ⟨50, _⟩ => ⟨S_, .f32⟩
  | .hbm, ⟨51, _⟩ => ⟨S4x89700, .f32⟩
  | .hbm, ⟨52, _⟩ => ⟨S4x89700, .f32⟩
  | .hbm, ⟨53, _⟩ => ⟨S_, .f32⟩
  | .hbm, ⟨54, _⟩ => ⟨S_, .f32⟩
  | .hbm, ⟨55, _⟩ => ⟨S4x89700, .f32⟩
  | .hbm, ⟨56, _⟩ => ⟨S4x89700, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S128x4, .f32⟩
  | .local _ .vmem, ⟨9, _⟩ => ⟨S1x4, .f32⟩
  | .local _ .vmem, ⟨10, _⟩ => ⟨S1024x512, .f32⟩
  | .local _ .vmem, ⟨11, _⟩ => ⟨S1024x512, .f32⟩
  | .local _ .vmem, ⟨12, _⟩ => ⟨S1024x4, .f32⟩
  | .local _ .vmem, ⟨13, _⟩ => ⟨S1024x4, .f32⟩
  | _, _ => ⟨S300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  pads_S89700x512_S90112x512_04120_000 : S89700x512.Pads (![0, 0] : Fin 2 → Nat) ![412, 0] ![0, 0] S90112x512
  h_S_ : 0 < S_.numel
  shapeCasts_S512_S1x512 : S512.ShapeCasts S1x512
  shapeCasts_S128_S1x128 : S128.ShapeCasts S1x128
  shapeCasts_S4_S1x4 : S4.ShapeCasts S1x4
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1024x4 : S1x4.Broadcasts S1024x4
  reduces_S1024x4_S1024 : S1024x4.Reduces [1] S1024
  shapeCasts_S1024_S1024x1 : S1024.ShapeCasts S1024x1
  broadcasts_S1024x1_S1024x4 : S1024x1.Broadcasts S1024x4
  inb_S1024x4_S1024x4_0_0 : ∀ a, (![0, 0] : Fin 2 → Nat) a + S1024x4.size a ≤ S1024x4.size a
  h_S1024x4 : 0 < S1024x4.numel
  slices_S90112x512_S89700x512_0_0 : S90112x512.Slices ![0, 0] S89700x512
  slices_S90112x4_S89700x4_0_0 : S90112x4.Slices ![0, 0] S89700x4
  slices_S89700x4_S89700x1_0_0 : S89700x4.Slices ![0, 0] S89700x1
  shapeCasts_S89700x1_S89700 : S89700x1.ShapeCasts S89700
  bcast_S_S89700 : S_.BroadcastsInDim S89700 (![] : Fin 0 → Fin S89700.rank)
  slices_S89700x4_S89700x1_0_1 : S89700x4.Slices ![0, 1] S89700x1
  slices_S89700x4_S89700x1_0_2 : S89700x4.Slices ![0, 2] S89700x1
  slices_S89700x4_S89700x1_0_3 : S89700x4.Slices ![0, 3] S89700x1
  bcast_S89700_S1x89700_1 : S89700.BroadcastsInDim S1x89700 (![1] : Fin 1 → Fin S1x89700.rank)
  concatenates_S1x89700_S1x89700_S1x89700_S1x89700_S4x89700_d0 : Shape.Concatenates [S1x89700, S1x89700, S1x89700, S1x89700] S4x89700 0
  bcast_S_S4x89700 : S_.BroadcastsInDim S4x89700 (![] : Fin 0 → Fin S4x89700.rank)
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  dot_S1024x128_S128x4_S1024x4_1_0_0_1_n_n_wf : DotDims.WF S1024x128 S128x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S90112x512.size a
  hwx0_0 : ∀ i : grid0.Coords, EltTy.bits .f32 = 32 ∨ (Rect.block (s := S90112x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x4.size a ≤ S128x4.size a
  hwx0_7 : ∀ i : grid0.Coords, EltTy.bits .f32 = 32 ∨ (Rect.block (s := S128x4) S128x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4.size a ≤ S1x4.size a
  hwx0_8 : ∀ i : grid0.Coords, EltTy.bits .f32 = 32 ∨ (Rect.block (s := S1x4) S1x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S90112x512.size a
  hwx0_9 : ∀ i : grid0.Coords, EltTy.bits .f32 = 32 ∨ (Rect.block (s := S90112x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x4.size a ≤ S90112x4.size a
  hwx0_10 : ∀ i : grid0.Coords, EltTy.bits .f32 = 32 ∨ (Rect.block (s := S90112x4) S1024x4.size (cc0_transform_10 i) (hinb0_10 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S1024x4.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S300x512 : Shape := ⟨2, ![300, 512]⟩
abbrev S89700x512 : Shape := ⟨2, ![89700, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S128x4 : Shape := ⟨2, ![128, 4]⟩
abbrev S4 : Shape := ⟨1, ![4]⟩
abbrev S1x512 : Shape := ⟨2, ![1, 512]⟩
abbrev S_ : Shape := ⟨0, ![]⟩
abbrev S89700x128 : Shape := ⟨2, ![89700, 128]⟩
abbrev S1x128 : Shape := ⟨2, ![1, 128]⟩
abbrev S89700x4 : Shape := ⟨2, ![89700, 4]⟩
abbrev S1x4 : Shape := ⟨2, ![1, 4]⟩
abbrev S89700 : Shape := ⟨1, ![89700]⟩
abbrev S89700x1 : Shape := ⟨2, ![89700, 1]⟩
abbrev S1x89700 : Shape := ⟨2, ![1, 89700]⟩
abbrev S4x89700 : Shape := ⟨2, ![4, 89700]⟩

abbrev nBuf : Space → Nat
  | .hbm => 82
  | .vmem => 0
  | .smem => 0
  | _ => 0

abbrev bufTy : (tb : Table) → Fin (tcTables nBuf tb) → BufTy
  | .hbm, ⟨0, _⟩ => ⟨S300x512, .f32⟩
  | .hbm, ⟨1, _⟩ => ⟨S89700x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x4, .f32⟩
  | .hbm, ⟨9, _⟩ => ⟨S4, .f32⟩
  | .hbm, ⟨10, _⟩ => ⟨S89700x512, .f32⟩
  | .hbm, ⟨11, _⟩ => ⟨S1x512, .f32⟩
  | .hbm, ⟨12, _⟩ => ⟨S89700x512, .f32⟩
  | .hbm, ⟨13, _⟩ => ⟨S89700x512, .f32⟩
  | .hbm, ⟨14, _⟩ => ⟨S_, .f32⟩
  | .hbm, ⟨15, _⟩ => ⟨S89700x512, .f32⟩
  | .hbm, ⟨16, _⟩ => ⟨S89700x512, .f32⟩
  | .hbm, ⟨17, _⟩ => ⟨S89700x512, .f32⟩
  | .hbm, ⟨18, _⟩ => ⟨S1x512, .f32⟩
  | .hbm, ⟨19, _⟩ => ⟨S89700x512, .f32⟩
  | .hbm, ⟨20, _⟩ => ⟨S89700x512, .f32⟩
  | .hbm, ⟨21, _⟩ => ⟨S89700x128, .f32⟩
  | .hbm, ⟨22, _⟩ => ⟨S1x128, .f32⟩
  | .hbm, ⟨23, _⟩ => ⟨S89700x128, .f32⟩
  | .hbm, ⟨24, _⟩ => ⟨S89700x128, .f32⟩
  | .hbm, ⟨25, _⟩ => ⟨S_, .f32⟩
  | .hbm, ⟨26, _⟩ => ⟨S89700x128, .f32⟩
  | .hbm, ⟨27, _⟩ => ⟨S89700x128, .f32⟩
  | .hbm, ⟨28, _⟩ => ⟨S89700x4, .f32⟩
  | .hbm, ⟨29, _⟩ => ⟨S1x4, .f32⟩
  | .hbm, ⟨30, _⟩ => ⟨S89700x4, .f32⟩
  | .hbm, ⟨31, _⟩ => ⟨S89700x4, .f32⟩
  | .hbm, ⟨32, _⟩ => ⟨S_, .f32⟩
  | .hbm, ⟨33, _⟩ => ⟨S89700, .f32⟩
  | .hbm, ⟨34, _⟩ => ⟨S_, .f32⟩
  | .hbm, ⟨35, _⟩ => ⟨S89700, .f32⟩
  | .hbm, ⟨36, _⟩ => ⟨S89700, .f32⟩
  | .hbm, ⟨37, _⟩ => ⟨S89700x1, .f32⟩
  | .hbm, ⟨38, _⟩ => ⟨S89700x4, .f32⟩
  | .hbm, ⟨39, _⟩ => ⟨S89700x4, .f32⟩
  | .hbm, ⟨40, _⟩ => ⟨S89700x4, .f32⟩
  | .hbm, ⟨41, _⟩ => ⟨S_, .f32⟩
  | .hbm, ⟨42, _⟩ => ⟨S89700, .f32⟩
  | .hbm, ⟨43, _⟩ => ⟨S89700x1, .f32⟩
  | .hbm, ⟨44, _⟩ => ⟨S89700x4, .f32⟩
  | .hbm, ⟨45, _⟩ => ⟨S89700x4, .f32⟩
  | .hbm, ⟨46, _⟩ => ⟨S89700x1, .f32⟩
  | .hbm, ⟨47, _⟩ => ⟨S89700, .f32⟩
  | .hbm, ⟨48, _⟩ => ⟨S_, .f32⟩
  | .hbm, ⟨49, _⟩ => ⟨S89700, .f32⟩
  | .hbm, ⟨50, _⟩ => ⟨S89700, .f32⟩
  | .hbm, ⟨51, _⟩ => ⟨S89700x1, .f32⟩
  | .hbm, ⟨52, _⟩ => ⟨S89700, .f32⟩
  | .hbm, ⟨53, _⟩ => ⟨S89700x1, .f32⟩
  | .hbm, ⟨54, _⟩ => ⟨S89700, .f32⟩
  | .hbm, ⟨55, _⟩ => ⟨S89700x1, .f32⟩
  | .hbm, ⟨56, _⟩ => ⟨S89700, .f32⟩
  | .hbm, ⟨57, _⟩ => ⟨S1x89700, .f32⟩
  | .hbm, ⟨58, _⟩ => ⟨S1x89700, .f32⟩
  | .hbm, ⟨59, _⟩ => ⟨S1x89700, .f32⟩
  | .hbm, ⟨60, _⟩ => ⟨S1x89700, .f32⟩
  | .hbm, ⟨61, _⟩ => ⟨S4x89700, .f32⟩
  | .hbm, ⟨62, _⟩ => ⟨S_, .f32⟩
  | .hbm, ⟨63, _⟩ => ⟨S4x89700, .f32⟩
  | .hbm, ⟨64, _⟩ => ⟨S4x89700, .i1⟩
  | .hbm, ⟨65, _⟩ => ⟨S_, .f32⟩
  | .hbm, ⟨66, _⟩ => ⟨S4x89700, .f32⟩
  | .hbm, ⟨67, _⟩ => ⟨S4x89700, .i1⟩
  | .hbm, ⟨68, _⟩ => ⟨S_, .f32⟩
  | .hbm, ⟨69, _⟩ => ⟨S4x89700, .f32⟩
  | .hbm, ⟨70, _⟩ => ⟨S4x89700, .f32⟩
  | .hbm, ⟨71, _⟩ => ⟨S_, .f32⟩
  | .hbm, ⟨72, _⟩ => ⟨S4x89700, .f32⟩
  | .hbm, ⟨73, _⟩ => ⟨S4x89700, .f32⟩
  | .hbm, ⟨74, _⟩ => ⟨S_, .f32⟩
  | .hbm, ⟨75, _⟩ => ⟨S_, .f32⟩
  | .hbm, ⟨76, _⟩ => ⟨S4x89700, .f32⟩
  | .hbm, ⟨77, _⟩ => ⟨S4x89700, .f32⟩
  | .hbm, ⟨78, _⟩ => ⟨S_, .f32⟩
  | .hbm, ⟨79, _⟩ => ⟨S_, .f32⟩
  | .hbm, ⟨80, _⟩ => ⟨S4x89700, .f32⟩
  | .hbm, ⟨81, _⟩ => ⟨S4x89700, .f32⟩
  | _, _ => ⟨S300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_v52 : Ref sig .tc := ⟨.hbm, 77, rfl⟩
abbrev main_cst_8 : Ref sig .tc := ⟨.hbm, 78, rfl⟩
abbrev main_call3_v0 : Ref sig .tc := ⟨.hbm, 79, rfl⟩
abbrev main_call3_v1 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S89700x512_0_1 : S1x512.BroadcastsInDim S89700x512 (![0, 1] : Fin 2 → Fin S89700x512.rank)
  bcast_S_S89700x512 : S_.BroadcastsInDim S89700x512 (![] : Fin 0 → Fin S89700x512.rank)
  bcast_S128_S1x128_1 : S128.BroadcastsInDim S1x128 (![1] : Fin 1 → Fin S1x128.rank)
  bcast_S1x128_S89700x128_0_1 : S1x128.BroadcastsInDim S89700x128 (![0, 1] : Fin 2 → Fin S89700x128.rank)
  bcast_S_S89700x128 : S_.BroadcastsInDim S89700x128 (![] : Fin 0 → Fin S89700x128.rank)
  bcast_S4_S1x4_1 : S4.BroadcastsInDim S1x4 (![1] : Fin 1 → Fin S1x4.rank)
  bcast_S1x4_S89700x4_0_1 : S1x4.BroadcastsInDim S89700x4 (![0, 1] : Fin 2 → Fin S89700x4.rank)
  reducesTo_S89700x4_S89700_d1 : S89700x4.ReducesTo [1] S89700
  h_S_ : 0 < S_.numel
  bcast_S_S89700 : S_.BroadcastsInDim S89700 (![] : Fin 0 → Fin S89700.rank)
  bcast_S89700_S89700x1_0 : S89700.BroadcastsInDim S89700x1 (![0] : Fin 1 → Fin S89700x1.rank)
  bcast_S89700x1_S89700x4_0_1 : S89700x1.BroadcastsInDim S89700x4 (![0, 1] : Fin 2 → Fin S89700x4.rank)
  slices_S89700x4_S89700x1_0_0 : S89700x4.Slices ![0, 0] S89700x1
  shapeCasts_S89700x1_S89700 : S89700x1.ShapeCasts S89700
  slices_S89700x4_S89700x1_0_1 : S89700x4.Slices ![0, 1] S89700x1
  slices_S89700x4_S89700x1_0_2 : S89700x4.Slices ![0, 2] S89700x1
  slices_S89700x4_S89700x1_0_3 : S89700x4.Slices ![0, 3] S89700x1
  bcast_S89700_S1x89700_1 : S89700.BroadcastsInDim S1x89700 (![1] : Fin 1 → Fin S1x89700.rank)
  concatenates_S1x89700_S1x89700_S1x89700_S1x89700_S4x89700_d0 : Shape.Concatenates [S1x89700, S1x89700, S1x89700, S1x89700] S4x89700 0
  bcast_S_S4x89700 : S_.BroadcastsInDim S4x89700 (![] : Fin 0 → Fin S4x89700.rank)
  dot_S89700x512_S512x512_S89700x512_1_0_0_1_n_n_wf : DotDims.WF S89700x512 S512x512 S89700x512 [1] [0] [0] [1] [] []
  dot_S89700x512_S512x128_S89700x128_1_0_0_1_n_n_wf : DotDims.WF S89700x512 S512x128 S89700x128 [1] [0] [0] [1] [] []
  dot_S89700x128_S128x4_S89700x4_1_0_0_1_n_n_wf : DotDims.WF S89700x128 S128x4 S89700x4 [1] [0] [0] [1] [] []

variable [Facts₀]

def dot_S89700x512_S512x512_S89700x512_1_0_0_1_n_n : DotDims S89700x512 S512x512 S89700x512 where
  lhsContracting := [1]
  rhsContracting := [0]
  lhsNonContracting := [0]
  rhsNonContracting := [1]
  lhsBatch := []
  rhsBatch := []
  wf := dot_S89700x512_S512x512_S89700x512_1_0_0_1_n_n_wf
def dot_S89700x512_S512x128_S89700x128_1_0_0_1_n_n : DotDims S89700x512 S512x128 S89700x128 where
  lhsContracting := [1]
  rhsContracting := [0]
  lhsNonContracting := [0]
  rhsNonContracting := [1]
  lhsBatch := []
  rhsBatch := []
  wf := dot_S89700x512_S512x128_S89700x128_1_0_0_1_n_n_wf
def dot_S89700x128_S128x4_S89700x4_1_0_0_1_n_n : DotDims S89700x128 S128x4 S89700x4 where
  lhsContracting := [1]
  rhsContracting := [0]
  lhsNonContracting := [0]
  rhsNonContracting := [1]
  lhsBatch := []
  rhsBatch := []
  wf := dot_S89700x128_S128x4_S89700x4_1_0_0_1_n_n_wf

class Facts : Prop extends Facts₀ where

variable [Facts]
-- ==== Proof.RegionBits.lean ====
/-
  The pallas_call's region of `Kernel` and the run of @main around it, at any float instance: @main goes on after
  its region, so the launch is the library's for a region continued by later host lines.

  @main is three stretches of host operations (the zero the rows are padded with, the padding of the 89700 code rows to
  88 blocks of 1024, the four biases re-laid as one-row matrices), the region on its grid of 88 points, and four more
  stretches (the two results cut back to 89700 rows, the four class columns stacked as rows, the piecewise-linear gate).
  At a point the body reads one block of 1024 padded rows and the eight whole parameter matrices, and writes one block
  of each result whole: the rows through the first two-layer map, and their class weights (a softmax over four).
  So each result's staging buffer, after the body, is one pure function of the nine input blocks; every input buffer is
  left as found; and the lines after the region write fresh buffers only. Hence every argument array ends as launched.
-/
import proofs.«145546_j84610855731459_1_alg».proof.Proof.Gen.Kernel.Launch
import proofs.«145546_j84610855731459_1_alg».proof.Proof.Gen.Kernel.Skeleton
import proofs.«145546_j84610855731459_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch, and those after it. -/
abbrev before : List (List (HloOp τ sig (Elt F))) := [hostOps0, hostOps0_1, hostOps0_2]
abbrev later : List (List (HloOp τ sig (Elt F))) := [hostOps1, hostOps1_1, hostOps1_2, hostOps1_3]

/-- Core `c`'s buffer contents when the region is entered: the launch contents after the host operations before it. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem before_fresh : (before (F := F)).Forall fun ops => ops.Forall fun op => op.fresh = ∅ := by
  simp only [before, hostOps0, hostOps0_1, hostOps0_2, List.Forall]; repeat' constructor
theorem later_fresh : (later (F := F)).Forall fun ops => ops.Forall fun op => op.fresh = ∅ := by
  simp only [later, hostOps1, hostOps1_1, hostOps1_2, hostOps1_3, List.Forall]; repeat' constructor

/-- @main reduces to its region continued by the later stretches, the buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main before later (by simp only [before, List.Forall]; exact ⟨hostOps0_sub, hostOps0_1_sub, hostOps0_2_sub⟩)
    before_fresh main_chain

/-- No later operation writes an array the pipeline stages: each writes its own fresh result. -/
theorem later_keeps : (later (F := F)).Forall fun ops => ops.Forall fun op =>
    ∀ w, Proc.devRef .tc (Pipeline.arrRef spec0 w) ∉ op.writes := by
  simp only [later, hostOps1, hostOps1_1, hostOps1_2, hostOps1_3, List.Forall, StableHlo.nullary_writes, StableHlo.unary_writes, StableHlo.binary_writes, StableHlo.ternary_writes, StableHlo.reshape_writes, StableHlo.nary_writes, Finset.mem_singleton]
  repeat' apply And.intro
  all_goals (refine fun w => StableHlo.devRef_ne_of_ne ?_; revert w; decide)

/-- The later operations touch unscoped TensorCore references only: the pipeline's arrays and the buffers that go round the region. -/
theorem sfx_sub : ∀ ops ∈ (later (F := F)), ∀ op ∈ ops, op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
theorem sfx_fresh : ∀ ops ∈ (later (F := F)), ∀ op ∈ ops, op.fresh = ∅ := fun ops hops op hop =>
  (List.forall_iff_forall_mem.mp ((List.forall_iff_forall_mem.mp later_fresh) ops hops)) op hop
theorem sfx_keeps : ∀ ops ∈ (later (F := F)), ∀ op ∈ ops, ∀ w, Proc.devRef .tc (Pipeline.arrRef spec0 w) ∉ op.writes := fun ops hops op hop =>
  (List.forall_iff_forall_mem.mp ((List.forall_iff_forall_mem.mp later_keeps) ops hops)) op hop

/-! ## The argument arrays are written by no host operation -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it. -/
theorem later_not_written (b : Ref sig .tc) (hb : b ∈ ([main_arg0, main_arg1, main_arg2, main_arg3, main_arg4, main_arg5, main_arg6, main_arg7, main_arg8, main_arg9] : List (Ref sig .tc))) :
    ∀ op ∈ List.flatten (later (F := F)), Proc.devRef .tc b ∉ op.writes := by
  simp only [List.mem_cons, List.mem_nil_iff, or_false] at hb
  rcases hb with rfl | rfl | rfl | rfl | rfl | rfl | rfl | rfl | rfl | rfl
  all_goals
    refine List.forall_iff_forall_mem.mp ?_
    simp only [later, hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

/-- `main_arg0` goes round the region and no later operation writes it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) later c main_arg0 = m ((c : Thread nD τ).loc main_arg0) := by
  unfold Pipeline.afterTail₀
  rw [StableHlo.after_of_forall_not_mem (b := Proc.devRef .tc main_arg0) _ _ (later_not_written main_arg0 (by decide)),
    Pipeline.withArrays_of_ne _ c (V0 m c) _ main_arg0 (by exact (by decide : ∀ w, Pipeline.arrRef spec0 w ≠ main_arg0))]
  exact V_main_arg0 m c
/-- `main_arg1` goes round the region and no later operation writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) later c main_arg1 = m ((c : Thread nD τ).loc main_arg1) := by
  unfold Pipeline.afterTail₀
  rw [StableHlo.after_of_forall_not_mem (b := Proc.devRef .tc main_arg1) _ _ (later_not_written main_arg1 (by decide)),
    Pipeline.withArrays_of_ne _ c (V0 m c) _ main_arg1 (by exact (by decide : ∀ w, Pipeline.arrRef spec0 w ≠ main_arg1))]
  exact V_main_arg1 m c
/-- `main_arg3` goes round the region and no later operation writes it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) later c main_arg3 = m ((c : Thread nD τ).loc main_arg3) := by
  unfold Pipeline.afterTail₀
  rw [StableHlo.after_of_forall_not_mem (b := Proc.devRef .tc main_arg3) _ _ (later_not_written main_arg3 (by decide)),
    Pipeline.withArrays_of_ne _ c (V0 m c) _ main_arg3 (by exact (by decide : ∀ w, Pipeline.arrRef spec0 w ≠ main_arg3))]
  exact V_main_arg3 m c
/-- `main_arg5` goes round the region and no later operation writes it: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) later c main_arg5 = m ((c : Thread nD τ).loc main_arg5) := by
  unfold Pipeline.afterTail₀
  rw [StableHlo.after_of_forall_not_mem (b := Proc.devRef .tc main_arg5) _ _ (later_not_written main_arg5 (by decide)),
    Pipeline.withArrays_of_ne _ c (V0 m c) _ main_arg5 (by exact (by decide : ∀ w, Pipeline.arrRef spec0 w ≠ main_arg5))]
  exact V_main_arg5 m c
/-- `main_arg7` goes round the region and no later operation writes it: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) later c main_arg7 = m ((c : Thread nD τ).loc main_arg7) := by
  unfold Pipeline.afterTail₀
  rw [StableHlo.after_of_forall_not_mem (b := Proc.devRef .tc main_arg7) _ _ (later_not_written main_arg7 (by decide)),
    Pipeline.withArrays_of_ne _ c (V0 m c) _ main_arg7 (by exact (by decide : ∀ w, Pipeline.arrRef spec0 w ≠ main_arg7))]
  exact V_main_arg7 m c
/-- `main_arg9` goes round the region and no later operation writes it: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) later c main_arg9 = m ((c : Thread nD τ).loc main_arg9) := by
  unfold Pipeline.afterTail₀
  rw [StableHlo.after_of_forall_not_mem (b := Proc.devRef .tc main_arg9) _ _ (later_not_written main_arg9 (by decide)),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its block
    index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its block
    index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its block
    index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, its block
    index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, its block
    index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, its block
    index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, its block
    index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, its block
    index has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- At a final state satisfying the library's post over any proof data whose arrays are the region-entry contents: a
    parameter matrix the pipeline stages is an input, so its array ends at its entry contents; an argument that goes round
    the region ends as the later lines leave it; either way as launched. -/
theorem kept_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) later) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c),
    ((h c).1 5).trans (((dats 0 c).arrAt_in 5 rfl _).trans ((hA c 5).trans (V_main_arg6 m c))),
    ((h c).2 main_arg7 (Pipeline.mem_restRefs_of main_arg7 (by decide) (by decide))).trans (W_main_arg7 m dats c),
    ((h c).1 7).trans (((dats 0 c).arrAt_in 7 rfl _).trans ((hA c 7).trans (V_main_arg8 m c))),
    ((h c).2 main_arg9 (Pipeline.mem_restRefs_of main_arg9 (by decide) (by decide))).trans (W_main_arg9 m dats c)⟩

/-- So a run to that post is a run to the frame's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_args m dats hA r h c) h

/-! ## The body's accesses: every load and both stores are of a whole staging buffer -/

abbrev rRows : Rect S1024x512 := Rect.unit (s := S1024x512) ![0, 0] S1024x512.size inb_S1024x512_S1024x512_0_0
abbrev rSquare : Rect S512x512 := Rect.unit (s := S512x512) ![0, 0] S512x512.size inb_S512x512_S512x512_0_0
abbrev rBias512 : Rect S1x512 := Rect.unit (s := S1x512) ![0, 0] S1x512.size inb_S1x512_S1x512_0_0
abbrev rDown : Rect S512x128 := Rect.unit (s := S512x128) ![0, 0] S512x128.size inb_S512x128_S512x128_0_0
abbrev rBias128 : Rect S1x128 := Rect.unit (s := S1x128) ![0, 0] S1x128.size inb_S1x128_S1x128_0_0
abbrev rClassW : Rect S128x4 := Rect.unit (s := S128x4) ![0, 0] S128x4.size inb_S128x4_S128x4_0_0
abbrev rBias4 : Rect S1x4 := Rect.unit (s := S1x4) ![0, 0] S1x4.size inb_S1x4_S1x4_0_0
abbrev rClasses : Rect S1024x4 := Rect.unit (s := S1024x4) ![0, 0] S1024x4.size inb_S1024x4_S1024x4_0_0

/-! ## What the body leaves in each result's staging buffer -/

/-- The block of embedded rows: the one store into window 9's buffer, its value the first two-layer map of the block of
    code rows (the skeleton's payload of the five blocks it reads). -/
def edgeOut (x0 : Vec F S1024x512 .f32) (x1 : Vec F S512x512 .f32) (x2 : Vec F S1x512 .f32) (x3 : Vec F S512x512 .f32) (x4 : Vec F S1x512 .f32) : Vec F S1024x512 .f32 :=
  View.canon [⟨rRows, k0_pay2 (View.ld x0 rRows) (View.ld x1 rSquare) (View.ld x2 rBias512) (View.ld x3 rSquare) (View.ld x4 rBias512)⟩]

/-- The block of class weights: the one store into window 10's buffer, the softmax over the four classes of the second
    two-layer map of the embedded rows. -/
def classOut (x0 : Vec F S1024x512 .f32) (x1 : Vec F S512x512 .f32) (x2 : Vec F S1x512 .f32) (x3 : Vec F S512x512 .f32) (x4 : Vec F S1x512 .f32) (x5 : Vec F S512x128 .f32) (x6 : Vec F S1x128 .f32) (x7 : Vec F S128x4 .f32) (x8 : Vec F S1x4 .f32) : Vec F S1024x4 .f32 :=
  View.canon [⟨rClasses, k0_pay1 (k0_pay3 (View.ld x0 rRows) (View.ld x1 rSquare) (View.ld x2 rBias512) (View.ld x3 rSquare) (View.ld x4 rBias512) (View.ld x5 rDown) (View.ld x6 rBias128))
    (k0_pay4 (View.ld x7 rClassW)) (constant S1024x4 .f32 0x00000000#32) (View.ld x8 rBias4)⟩]

/-- A store of the whole block covers it. -/
theorem coverEdge (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y
theorem coverClasses (p0 : Vec F S1024x4 .f32) (y : S1024x4.Idx) :
    ∃ pc ∈ ([⟨rClasses, p0⟩] : List (View.Piece (Elt F) S1024x4 .f32)), y ∈ pc.1.set :=
  View.cover_of_tiled [⟨rClasses, p0⟩] S1024x4.size (by rfl) y

/-! ## The body's triple -/

set_option maxHeartbeats 4000000 in
/-- On whole staging memrefs, the nine inputs' at read contents `x·` and the two results' at anything, the body runs to
    the continuation holding the inputs' as they were and each result's at its block above. (The body also loads each
    result's buffer just before it overwrites it; nothing it stores depends on what it finds there.) -/
theorem sound_kernel (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S1024x512 .f32) (harg10 : arg10.IsWhole) (arg11 : Memref sig .tc .vmem S1024x4 .f32) (harg11 : arg11.IsWhole)
    (x0 : Vec F S1024x512 .f32) (x1 : Vec F S512x512 .f32) (x2 : Vec F S1x512 .f32) (x3 : Vec F S512x512 .f32) (x4 : Vec F S1x512 .f32) (x5 : Vec F S512x128 .f32) (x6 : Vec F S1x128 .f32) (x7 : Vec F S128x4 .f32) (x8 : Vec F S1x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (edgeOut x0 x1 x2 x3 x4) ∗ owns (c : Thread nD τ) arg11 fullShare (classOut x0 x1 x2 x3 x4 x5 x6 x7 x8)) -∗ K ⟨⟩))
      ⊢ wp frame (wpE (defs₀ (F := F)) Variants.none c none) E (cc0__mlp2_kernel i arg1 harg1 arg2 harg2 arg3 harg3 arg4 harg4 arg5 harg5 arg6 harg6 arg7 harg7 arg8 harg8 arg9 harg9 arg10 harg10 arg11 harg11) K := by
  simp only [cc0__mlp2_kernel_eq_skeleton]; unfold cc0__mlp2_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverEdge _)
  iexists _; isplitr
  swap; · iexact H10
  ipureintro
  exact View.read_writes_eq_canon _ _ _ (coverClasses _)

/-! ## The pipeline's proof data -/

/-- On core `c`: the arrays as the region finds them; after the body at point `t` each input's buffer at its block and each
    result's at its block above, of the input blocks at `t`; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => edgeOut (iblk m c 0 t) (iblk m c 1 t) (iblk m c 2 t) (iblk m c 3 t) (iblk m c 4 t)
    | ⟨10, _⟩ => classOut (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = edgeOut (iblk m c 0 t) (iblk m c 1 t) (iblk m c 2 t) (iblk m c 3 t) (iblk m c 4 t) := by dsimp only [dats]
theorem after10 (c : Dev nD) (t : Fin cfg0.N) : (dats m 0 c).after 10 t = classOut (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := sfx_sub) (hfresh := sfx_fresh) (hkeep := sfx_keeps)
    (hmain := hmain m Variants.none) (hA := A_eq m) (hΦ := fun _ _ => rfl)

/-- The frame: @main runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Region

end
-- ==== Proof.RegionIdeal.lean ====
/-
  The pallas_call's region of `KernelIdeal` and the run of @main around it, at any float instance: @main goes on after
  its region, so the launch is the library's for a region continued by later host lines.

  @main is three stretches of host operations (the zero the rows are padded with, the padding of the 89700 code rows to
  88 blocks of 1024, the four biases re-laid as one-row matrices), the region on its grid of 88 points, and four more
  stretches (the two results cut back to 89700 rows, the four class columns stacked as rows, the piecewise-linear gate).
  At a point the body reads one block of 1024 padded rows and the eight whole parameter matrices, and writes one block
  of each result whole: the rows through the first two-layer map, and their class weights (a softmax over four).
  So each result's staging buffer, after the body, is one pure function of the nine input blocks; every input buffer is
  left as found; and the lines after the region write fresh buffers only. Hence every argument array ends as launched.
-/
import proofs.«145546_j84610855731459_1_alg».proof.Proof.Gen.KernelIdeal.Launch
import proofs.«145546_j84610855731459_1_alg».proof.Proof.Gen.KernelIdeal.Skeleton
import proofs.«145546_j84610855731459_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch, and those after it. -/
abbrev before : List (List (HloOp τ sig (Elt F))) := [hostOps0, hostOps0_1, hostOps0_2]
abbrev later : List (List (HloOp τ sig (Elt F))) := [hostOps1, hostOps1_1, hostOps1_2, hostOps1_3]

/-- Core `c`'s buffer contents when the region is entered: the launch contents after the host operations before it. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem before_fresh : (before (F := F)).Forall fun ops => ops.Forall fun op => op.fresh = ∅ := by
  simp only [before, hostOps0, hostOps0_1, hostOps0_2, List.Forall]; repeat' constructor
theorem later_fresh : (later (F := F)).Forall fun ops => ops.Forall fun op => op.fresh = ∅ := by
  simp only [later, hostOps1, hostOps1_1, hostOps1_2, hostOps1_3, List.Forall]; repeat' constructor

/-- @main reduces to its region continued by the later stretches, the buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main before later (by simp only [before, List.Forall]; exact ⟨hostOps0_sub, hostOps0_1_sub, hostOps0_2_sub⟩)
    before_fresh main_chain

/-- No later operation writes an array the pipeline stages: each writes its own fresh result. -/
theorem later_keeps : (later (F := F)).Forall fun ops => ops.Forall fun op =>
    ∀ w, Proc.devRef .tc (Pipeline.arrRef spec0 w) ∉ op.writes := by
  simp only [later, hostOps1, hostOps1_1, hostOps1_2, hostOps1_3, List.Forall, StableHlo.nullary_writes, StableHlo.unary_writes, StableHlo.binary_writes, StableHlo.ternary_writes, StableHlo.reshape_writes, StableHlo.nary_writes, Finset.mem_singleton]
  repeat' apply And.intro
  all_goals (refine fun w => StableHlo.devRef_ne_of_ne ?_; revert w; decide)

/-- The later operations touch unscoped TensorCore references only: the pipeline's arrays and the buffers that go round the region. -/
theorem sfx_sub : ∀ ops ∈ (later (F := F)), ∀ op ∈ ops, op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
theorem sfx_fresh : ∀ ops ∈ (later (F := F)), ∀ op ∈ ops, op.fresh = ∅ := fun ops hops op hop =>
  (List.forall_iff_forall_mem.mp ((List.forall_iff_forall_mem.mp later_fresh) ops hops)) op hop
theorem sfx_keeps : ∀ ops ∈ (later (F := F)), ∀ op ∈ ops, ∀ w, Proc.devRef .tc (Pipeline.arrRef spec0 w) ∉ op.writes := fun ops hops op hop =>
  (List.forall_iff_forall_mem.mp ((List.forall_iff_forall_mem.mp later_keeps) ops hops)) op hop

/-! ## The argument arrays are written by no host operation -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [before, hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it. -/
theorem later_not_written (b : Ref sig .tc) (hb : b ∈ ([main_arg0, main_arg1, main_arg2, main_arg3, main_arg4, main_arg5, main_arg6, main_arg7, main_arg8, main_arg9] : List (Ref sig .tc))) :
    ∀ op ∈ List.flatten (later (F := F)), Proc.devRef .tc b ∉ op.writes := by
  simp only [List.mem_cons, List.mem_nil_iff, or_false] at hb
  rcases hb with rfl | rfl | rfl | rfl | rfl | rfl | rfl | rfl | rfl | rfl
  all_goals
    refine List.forall_iff_forall_mem.mp ?_
    simp only [later, hostOps1, hostOps1_1, hostOps1_2, hostOps1_3, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

/-- `main_arg0` goes round the region and no later operation writes it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) later c main_arg0 = m ((c : Thread nD τ).loc main_arg0) := by
  unfold Pipeline.afterTail₀
  rw [StableHlo.after_of_forall_not_mem (b := Proc.devRef .tc main_arg0) _ _ (later_not_written main_arg0 (by decide)),
    Pipeline.withArrays_of_ne _ c (V0 m c) _ main_arg0 (by exact (by decide : ∀ w, Pipeline.arrRef spec0 w ≠ main_arg0))]
  exact V_main_arg0 m c
/-- `main_arg1` goes round the region and no later operation writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) later c main_arg1 = m ((c : Thread nD τ).loc main_arg1) := by
  unfold Pipeline.afterTail₀
  rw [StableHlo.after_of_forall_not_mem (b := Proc.devRef .tc main_arg1) _ _ (later_not_written main_arg1 (by decide)),
    Pipeline.withArrays_of_ne _ c (V0 m c) _ main_arg1 (by exact (by decide : ∀ w, Pipeline.arrRef spec0 w ≠ main_arg1))]
  exact V_main_arg1 m c
/-- `main_arg3` goes round the region and no later operation writes it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) later c main_arg3 = m ((c : Thread nD τ).loc main_arg3) := by
  unfold Pipeline.afterTail₀
  rw [StableHlo.after_of_forall_not_mem (b := Proc.devRef .tc main_arg3) _ _ (later_not_written main_arg3 (by decide)),
    Pipeline.withArrays_of_ne _ c (V0 m c) _ main_arg3 (by exact (by decide : ∀ w, Pipeline.arrRef spec0 w ≠ main_arg3))]
  exact V_main_arg3 m c
/-- `main_arg5` goes round the region and no later operation writes it: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) later c main_arg5 = m ((c : Thread nD τ).loc main_arg5) := by
  unfold Pipeline.afterTail₀
  rw [StableHlo.after_of_forall_not_mem (b := Proc.devRef .tc main_arg5) _ _ (later_not_written main_arg5 (by decide)),
    Pipeline.withArrays_of_ne _ c (V0 m c) _ main_arg5 (by exact (by decide : ∀ w, Pipeline.arrRef spec0 w ≠ main_arg5))]
  exact V_main_arg5 m c
/-- `main_arg7` goes round the region and no later operation writes it: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) later c main_arg7 = m ((c : Thread nD τ).loc main_arg7) := by
  unfold Pipeline.afterTail₀
  rw [StableHlo.after_of_forall_not_mem (b := Proc.devRef .tc main_arg7) _ _ (later_not_written main_arg7 (by decide)),
    Pipeline.withArrays_of_ne _ c (V0 m c) _ main_arg7 (by exact (by decide : ∀ w, Pipeline.arrRef spec0 w ≠ main_arg7))]
  exact V_main_arg7 m c
/-- `main_arg9` goes round the region and no later operation writes it: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) later c main_arg9 = m ((c : Thread nD τ).loc main_arg9) := by
  unfold Pipeline.afterTail₀
  rw [StableHlo.after_of_forall_not_mem (b := Proc.devRef .tc main_arg9) _ _ (later_not_written main_arg9 (by decide)),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its block
    index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its block
    index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its block
    index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, its block
    index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, its block
    index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, its block
    index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, its block
    index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, its block
    index has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- At a final state satisfying the library's post over any proof data whose arrays are the region-entry contents: a
    parameter matrix the pipeline stages is an input, so its array ends at its entry contents; an argument that goes round
    the region ends as the later lines leave it; either way as launched. -/
theorem kept_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) later) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c),
    ((h c).1 5).trans (((dats 0 c).arrAt_in 5 rfl _).trans ((hA c 5).trans (V_main_arg6 m c))),
    ((h c).2 main_arg7 (Pipeline.mem_restRefs_of main_arg7 (by decide) (by decide))).trans (W_main_arg7 m dats c),
    ((h c).1 7).trans (((dats 0 c).arrAt_in 7 rfl _).trans ((hA c 7).trans (V_main_arg8 m c))),
    ((h c).2 main_arg9 (Pipeline.mem_restRefs_of main_arg9 (by decide) (by decide))).trans (W_main_arg9 m dats c)⟩

/-- So a run to that post is a run to the frame's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_args m dats hA r h c) h

/-! ## The body's accesses: every load and both stores are of a whole staging buffer -/

abbrev rRows : Rect S1024x512 := Rect.unit (s := S1024x512) ![0, 0] S1024x512.size inb_S1024x512_S1024x512_0_0
abbrev rSquare : Rect S512x512 := Rect.unit (s := S512x512) ![0, 0] S512x512.size inb_S512x512_S512x512_0_0
abbrev rBias512 : Rect S1x512 := Rect.unit (s := S1x512) ![0, 0] S1x512.size inb_S1x512_S1x512_0_0
abbrev rDown : Rect S512x128 := Rect.unit (s := S512x128) ![0, 0] S512x128.size inb_S512x128_S512x128_0_0
abbrev rBias128 : Rect S1x128 := Rect.unit (s := S1x128) ![0, 0] S1x128.size inb_S1x128_S1x128_0_0
abbrev rClassW : Rect S128x4 := Rect.unit (s := S128x4) ![0, 0] S128x4.size inb_S128x4_S128x4_0_0
abbrev rBias4 : Rect S1x4 := Rect.unit (s := S1x4) ![0, 0] S1x4.size inb_S1x4_S1x4_0_0
abbrev rClasses : Rect S1024x4 := Rect.unit (s := S1024x4) ![0, 0] S1024x4.size inb_S1024x4_S1024x4_0_0

/-! ## What the body leaves in each result's staging buffer -/

/-- The block of embedded rows: the one store into window 9's buffer, its value the first two-layer map of the block of
    code rows (the skeleton's payload of the five blocks it reads). -/
def edgeOut (x0 : Vec F S1024x512 .f32) (x1 : Vec F S512x512 .f32) (x2 : Vec F S1x512 .f32) (x3 : Vec F S512x512 .f32) (x4 : Vec F S1x512 .f32) : Vec F S1024x512 .f32 :=
  View.canon [⟨rRows, k0_pay2 (View.ld x0 rRows) (View.ld x1 rSquare) (View.ld x2 rBias512) (View.ld x3 rSquare) (View.ld x4 rBias512)⟩]

/-- The block of class weights: the one store into window 10's buffer, the softmax over the four classes of the second
    two-layer map of the embedded rows. -/
def classOut (x0 : Vec F S1024x512 .f32) (x1 : Vec F S512x512 .f32) (x2 : Vec F S1x512 .f32) (x3 : Vec F S512x512 .f32) (x4 : Vec F S1x512 .f32) (x5 : Vec F S512x128 .f32) (x6 : Vec F S1x128 .f32) (x7 : Vec F S128x4 .f32) (x8 : Vec F S1x4 .f32) : Vec F S1024x4 .f32 :=
  View.canon [⟨rClasses, k0_pay1 (k0_pay3 (View.ld x0 rRows) (View.ld x1 rSquare) (View.ld x2 rBias512) (View.ld x3 rSquare) (View.ld x4 rBias512) (View.ld x5 rDown) (View.ld x6 rBias128))
    (k0_pay4 (View.ld x7 rClassW)) (constant S1024x4 .f32 0x00000000#32) (View.ld x8 rBias4)⟩]

/-- A store of the whole block covers it. -/
theorem coverEdge (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y
theorem coverClasses (p0 : Vec F S1024x4 .f32) (y : S1024x4.Idx) :
    ∃ pc ∈ ([⟨rClasses, p0⟩] : List (View.Piece (Elt F) S1024x4 .f32)), y ∈ pc.1.set :=
  View.cover_of_tiled [⟨rClasses, p0⟩] S1024x4.size (by rfl) y

/-! ## The body's triple -/

set_option maxHeartbeats 4000000 in
/-- On whole staging memrefs, the nine inputs' at read contents `x·` and the two results' at anything, the body runs to
    the continuation holding the inputs' as they were and each result's at its block above. (The body also loads each
    result's buffer just before it overwrites it; nothing it stores depends on what it finds there.) -/
theorem sound_kernel (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S1024x512 .f32) (harg10 : arg10.IsWhole) (arg11 : Memref sig .tc .vmem S1024x4 .f32) (harg11 : arg11.IsWhole)
    (x0 : Vec F S1024x512 .f32) (x1 : Vec F S512x512 .f32) (x2 : Vec F S1x512 .f32) (x3 : Vec F S512x512 .f32) (x4 : Vec F S1x512 .f32) (x5 : Vec F S512x128 .f32) (x6 : Vec F S1x128 .f32) (x7 : Vec F S128x4 .f32) (x8 : Vec F S1x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (edgeOut x0 x1 x2 x3 x4) ∗ owns (c : Thread nD τ) arg11 fullShare (classOut x0 x1 x2 x3 x4 x5 x6 x7 x8)) -∗ K ⟨⟩))
      ⊢ wp frame (wpE (defs₀ (F := F)) Variants.none c none) E (cc0__mlp2_kernel i arg1 harg1 arg2 harg2 arg3 harg3 arg4 harg4 arg5 harg5 arg6 harg6 arg7 harg7 arg8 harg8 arg9 harg9 arg10 harg10 arg11 harg11) K := by
  simp only [cc0__mlp2_kernel_eq_skeleton]; unfold cc0__mlp2_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverEdge _)
  iexists _; isplitr
  swap; · iexact H10
  ipureintro
  exact View.read_writes_eq_canon _ _ _ (coverClasses _)

/-! ## The pipeline's proof data -/

/-- On core `c`: the arrays as the region finds them; after the body at point `t` each input's buffer at its block and each
    result's at its block above, of the input blocks at `t`; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => edgeOut (iblk m c 0 t) (iblk m c 1 t) (iblk m c 2 t) (iblk m c 3 t) (iblk m c 4 t)
    | ⟨10, _⟩ => classOut (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = edgeOut (iblk m c 0 t) (iblk m c 1 t) (iblk m c 2 t) (iblk m c 3 t) (iblk m c 4 t) := by dsimp only [dats]
theorem after10 (c : Dev nD) (t : Fin cfg0.N) : (dats m 0 c).after 10 t = classOut (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := sfx_sub) (hfresh := sfx_fresh) (hkeep := sfx_keeps)
    (hmain := hmain m Variants.none) (hA := A_eq m) (hΦ := fun _ _ => rfl)

/-- The frame: @main runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Region

end
-- ==== Proof.RowMaps.lean ====
/-
  The two maps that both programs apply to every code row, as functions on extended reals.

  A dense layer sends a row x to x·W + b. The edge embedding of a row is a dense layer, a ReLU, and a second dense layer;
  its class weights are the softmax, over four classes, of a further dense layer, ReLU and dense layer applied to the
  embedding. The softmax is written as both programs compute it: the row's maximum (a fold of max from −∞, then once more
  the max with −∞) is subtracted, the exponentials are taken, and each is divided by their sum. No row depends on another,
  so a result array is these maps applied row by row, whatever the number of rows: a block of 1024, the rows padded to
  90112, or the 89700 rows themselves.
-/
import Idealize.ShloMosaic.PureOps.Ideal.Laws
import Idealize.ShloMosaic.Lib.ValueIdx

noncomputable section

open scoped BigOperators

namespace Cert.RowMaps

open Idealize.ShloMosaic Idealize.ShloMosaic.ValueIdx

/-- One dense layer on a row: entry q of x·W + b. -/
def dense {K N : Nat} (W : Fin K → Fin N → EReal) (b : Fin N → EReal) (x : Fin K → EReal) (q : Fin N) : EReal :=
  (∑ k : Fin K, x k * W k q) + b q

/-- The ReLU: the larger of a value and the f32 zero. -/
def relu (v : EReal) : EReal := max v (Ideal.ofBits .f32 0x00000000#32)

/-- Dense layer, ReLU, dense layer. -/
def twoLayer {K H N : Nat} (W₁ : Fin K → Fin H → EReal) (b₁ : Fin H → EReal) (W₂ : Fin H → Fin N → EReal) (b₂ : Fin N → EReal)
    (x : Fin K → EReal) : Fin N → EReal :=
  dense W₂ b₂ fun h => relu (dense W₁ b₁ x h)

/-- The maximum of four logits, as both programs take it: the fold of max from the f32 −∞, and the max of that with −∞. -/
def rowMax (z : Fin 4 → EReal) : EReal :=
  max (Ideal.ofBits .f32 0xFF800000#32) ((Finset.univ : Finset (Fin 4)).fold max (Ideal.ofBits .f32 0xFF800000#32) z)

/-- The softmax over four logits. -/
def softmax4 (z : Fin 4 → EReal) (j : Fin 4) : EReal :=
  Ideal.div (Ideal.exp (z j - rowMax z)) (∑ k : Fin 4, Ideal.exp (z k - rowMax z))

/-- The eight parameter arrays, read as plain functions of their coordinates. -/
structure Params where
  We1 : Fin 512 → Fin 512 → EReal
  be1 : Fin 512 → EReal
  We2 : Fin 512 → Fin 512 → EReal
  be2 : Fin 512 → EReal
  Wt1 : Fin 512 → Fin 128 → EReal
  bt1 : Fin 128 → EReal
  Wt2 : Fin 128 → Fin 4 → EReal
  bt2 : Fin 4 → EReal

/-- The edge embedding of a code row. -/
def edgeRow (P : Params) (x : Fin 512 → EReal) : Fin 512 → EReal := twoLayer P.We1 P.be1 P.We2 P.be2 x

/-- The four class weights of a code row. -/
def classRow (P : Params) (x : Fin 512 → EReal) : Fin 4 → EReal :=
  softmax4 (twoLayer P.Wt1 P.bt1 P.Wt2 P.bt2 (edgeRow P x))

/-- The edge embeddings of an array of R code rows. -/
def edgeOf (P : Params) {R : Nat} (X : (⟨2, ![R, 512]⟩ : Shape).Idx → EReal) : (⟨2, ![R, 512]⟩ : Shape).Idx → EReal :=
  fun i => edgeRow P (fun k => X (ix2 (i 0) k)) (i 1)

/-- The class weights of an array of R code rows. -/
def classOf (P : Params) {R : Nat} (X : (⟨2, ![R, 512]⟩ : Shape).Idx → EReal) : (⟨2, ![R, 4]⟩ : Shape).Idx → EReal :=
  fun i => classRow P (fun k => X (ix2 (i 0) k)) (i 1)

/-- The parameters from the eight argument arrays: the weights as matrices, the biases as vectors. -/
def Params.ofArgs (We1 : (⟨2, ![512, 512]⟩ : Shape).Idx → EReal) (be1 : (⟨1, ![512]⟩ : Shape).Idx → EReal)
    (We2 : (⟨2, ![512, 512]⟩ : Shape).Idx → EReal) (be2 : (⟨1, ![512]⟩ : Shape).Idx → EReal)
    (Wt1 : (⟨2, ![512, 128]⟩ : Shape).Idx → EReal) (bt1 : (⟨1, ![128]⟩ : Shape).Idx → EReal)
    (Wt2 : (⟨2, ![128, 4]⟩ : Shape).Idx → EReal) (bt2 : (⟨1, ![4]⟩ : Shape).Idx → EReal) : Params where
  We1 k q := We1 (ix2 k q)
  be1 q := be1 (ix1 q)
  We2 k q := We2 (ix2 k q)
  be2 q := be2 (ix1 q)
  Wt1 k q := Wt1 (ix2 k q)
  bt1 q := bt1 (ix1 q)
  Wt2 k q := Wt2 (ix2 k q)
  bt2 q := bt2 (ix1 q)

/-- The same from the arrays a kernel stages: the biases re-laid as one-row matrices. -/
def Params.ofRows (We1 : (⟨2, ![512, 512]⟩ : Shape).Idx → EReal) (be1 : (⟨2, ![1, 512]⟩ : Shape).Idx → EReal)
    (We2 : (⟨2, ![512, 512]⟩ : Shape).Idx → EReal) (be2 : (⟨2, ![1, 512]⟩ : Shape).Idx → EReal)
    (Wt1 : (⟨2, ![512, 128]⟩ : Shape).Idx → EReal) (bt1 : (⟨2, ![1, 128]⟩ : Shape).Idx → EReal)
    (Wt2 : (⟨2, ![128, 4]⟩ : Shape).Idx → EReal) (bt2 : (⟨2, ![1, 4]⟩ : Shape).Idx → EReal) : Params where
  We1 k q := We1 (ix2 k q)
  be1 q := be1 (ix2 (0 : Fin 1) q)
  We2 k q := We2 (ix2 k q)
  be2 q := be2 (ix2 (0 : Fin 1) q)
  Wt1 k q := Wt1 (ix2 k q)
  bt1 q := bt1 (ix2 (0 : Fin 1) q)
  Wt2 k q := Wt2 (ix2 k q)
  bt2 q := bt2 (ix2 (0 : Fin 1) q)

end Cert.RowMaps

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelRows.lean ====
/-
  What the kernel's body computes, read entry by entry at the ideal values.

  The body's stored values are four pure terms of the blocks it loads. Read at row p of the block they are the row maps of
  RowMaps: a matrix product into the zero accumulator is the sum over the contraction index; the bias, a one-row matrix
  broadcast down the block, is its entry; the conversions to bf16 are the identity; a lane reduction along the four classes
  is the fold of max, or the sum, over the four entries of the row; and a column of 1024 values re-laid as [1024, 1] and
  broadcast across the four classes reads, at (p, j), the column's entry p.
-/
import proofs.«145546_j84610855731459_1_alg».proof.Proof.Gen.KernelIdeal.Skeleton
import proofs.«145546_j84610855731459_1_alg».proof.Proof.RowMaps
import proofs.«145546_j84610855731459_1_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Rows

open Idealize.ShloMosaic Idealize.ShloMosaic.ValueIdx Cert.KernelIdeal Cert.KernelIdeal.Gen Cert.RowMaps

/-- A dense layer as the kernel writes it: the product into the zero accumulator plus the bias row broadcast down the
    block, at entry (p, q). -/
theorem layer_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (matmul d none x w (constant ⟨2, ![M, N]⟩ .f32 0x00000000#32)) (broadcastTo ⟨2, ![M, N]⟩ b hb) (ix2 p q)
      = dense (fun k q => w (ix2 k q)) (fun q => b (ix2 (0 : Fin 1) q)) (fun k => x (ix2 p k)) q := by
  rw [addf_apply]
  show FloatOps.matmul d none x w (constant (F := Ideal) ⟨2, ![M, N]⟩ .f32 0x00000000#32) (ix2 p q) + _ = _
  rw [Cert.Lib.PlainDot.matmul_zero_apply d hlc hrc hln hrn hlb hrb, broadcastTo_1b_ab_apply]
  rfl

/-- A column re-laid as [a, 1] and broadcast across b columns reads, at (p, j), the column's entry p. -/
theorem column_apply {α : Type} {a b : Nat} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (j : Fin b) :
    broadcastTo ⟨2, ![a, b]⟩ (shapeCast ⟨2, ![a, 1]⟩ v h₁) h₂ (ix2 p j) = v (ix1 p) := by
  refine (broadcastTo_apply _ h₂ (ix2 p j) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v h₁ (ix2 p (0 : Fin 1)) (ix1 p) (by
      rw [Shape.rowMajor_val_two, Shape.rowMajor_val_one]
      show p.val = p.val * 1 + 0
      omega)

/-- The lane reduction's inserted index at row p is (p, k). -/
theorem lift_row (p : Fin 1024) (k : Fin 4) :
    (reduces_S1024x4_S1024 : S1024x4.Reduces [1] S1024).lift (ix1 p) k = ix2 p k :=
  funext fun a => Fin.ext (by
    match a with
    | ⟨0, _⟩ => rfl
    | ⟨1, _⟩ => rfl)

/-- The rows' maxima as the kernel lays them across the four classes: the lane maximum from −∞, once more the max with
    −∞, re-laid as a column and broadcast. -/
def maxCols (z : FVec Ideal S1024x4 .f32) : FVec Ideal S1024x4 .f32 :=
  broadcastTo S1024x4 (shapeCast S1024x1 (maximumf (broadcast S1024 (Scalar.ofBits .f32 0xFF800000#32))
    (multiReduction .maximumf [1] S1024 z 0xFF800000#32 reduces_S1024x4_S1024 (.inl rfl) rfl)) shapeCasts_S1024_S1024x1) broadcasts_S1024x1_S1024x4

/-- At (p, j) it is row p's maximum. -/
theorem maxCols_apply (z : FVec Ideal S1024x4 .f32) (p : Fin 1024) (j : Fin 4) :
    maxCols z (ix2 p j) = rowMax (fun k => z (ix2 p k)) := by
  unfold maxCols
  rw [column_apply, maximumf_apply, broadcast_apply]
  refine (congrArg (max _) (Ideal.multiReduction_maximumf_single z _ reduces_S1024x4_S1024 _ _ (ix1 p))).trans ?_
  unfold rowMax
  refine congrArg (max _) (congrArg (Finset.fold max _ · Finset.univ) (funext fun k => ?_))
  exact congrArg z (lift_row p k)

/-- The kernel's softmax over a block of logits, at entry (p, j): the softmax of row p. -/
theorem softmax_apply (z : FVec Ideal S1024x4 .f32) (p : Fin 1024) (j : Fin 4) :
    divf (exp (subf z (maxCols z)))
        (broadcastTo S1024x4 (shapeCast S1024x1 (multiReduction .add [1] S1024 (exp (subf z (maxCols z)))
          0x00000000#32 reduces_S1024x4_S1024 (.inl rfl) rfl) shapeCasts_S1024_S1024x1) broadcasts_S1024x1_S1024x4) (ix2 p j)
      = softmax4 (fun k => z (ix2 p k)) j := by
  rw [divf_apply, column_apply]
  refine (congrArg (Ideal.div _) (Ideal.multiReduction_add_single _ _ reduces_S1024x4_S1024 _ _ (ix1 p))).trans ?_
  unfold softmax4
  have hE : ∀ k : Fin 4, exp (subf z (maxCols z)) (reduces_S1024x4_S1024.lift (ix1 p) k)
      = Ideal.exp (z (ix2 p k) - rowMax fun k => z (ix2 p k)) := fun k => by
    refine (congrArg (exp (subf z (maxCols z))) (lift_row p k)).trans ?_
    show Ideal.exp (z (ix2 p k) - maxCols z (ix2 p k)) = _
    rw [maxCols_apply]
  exact congrArg₂ Ideal.div (show Ideal.exp (z (ix2 p j) - maxCols z (ix2 p j)) = _ by rw [maxCols_apply])
    (Finset.sum_congr rfl fun k _ => hE k)

/-- The first two-layer map of a block, at entry (p, q): the embedding of row p. -/
theorem edge_pay (x0 : Vec Ideal S1024x512 .f32) (w1 : Vec Ideal S512x512 .f32) (b1 : Vec Ideal S1x512 .f32)
    (w2 : Vec Ideal S512x512 .f32) (b2 : Vec Ideal S1x512 .f32) (p : Fin 1024) (q : Fin 512) :
    k0_pay2 (F := Ideal) x0 w1 b1 w2 b2 (ix2 p q)
      = twoLayer (fun k q => w1 (ix2 k q)) (fun q => b1 (ix2 (0 : Fin 1) q)) (fun k q => w2 (ix2 k q))
          (fun q => b2 (ix2 (0 : Fin 1) q)) (fun k => x0 (ix2 p k)) q := by
  unfold k0_pay2
  simp only [shapeCast_self]
  rw [layer_apply _ rfl rfl rfl rfl rfl rfl]
  unfold twoLayer
  refine congrArg (fun f => dense _ _ f q) (funext fun h => ?_)
  simp only [truncf_apply, maximumf_apply, broadcast_apply]
  rw [layer_apply _ rfl rfl rfl rfl rfl rfl]
  rfl

/-- The hidden layer of the class map on a block, at entry (p, h). -/
theorem hidden_pay (x0 : Vec Ideal S1024x512 .f32) (w1 : Vec Ideal S512x512 .f32) (b1 : Vec Ideal S1x512 .f32)
    (w2 : Vec Ideal S512x512 .f32) (b2 : Vec Ideal S1x512 .f32) (w3 : Vec Ideal S512x128 .f32) (b3 : Vec Ideal S1x128 .f32)
    (p : Fin 1024) (h : Fin 128) :
    k0_pay3 (F := Ideal) x0 w1 b1 w2 b2 w3 b3 (ix2 p h)
      = relu (dense (fun k q => w3 (ix2 k q)) (fun q => b3 (ix2 (0 : Fin 1) q))
          (twoLayer (fun k q => w1 (ix2 k q)) (fun q => b1 (ix2 (0 : Fin 1) q)) (fun k q => w2 (ix2 k q))
            (fun q => b2 (ix2 (0 : Fin 1) q)) (fun k => x0 (ix2 p k))) h) := by
  unfold k0_pay3
  simp only [shapeCast_self, truncf_apply, maximumf_apply, broadcast_apply]
  rw [layer_apply _ rfl rfl rfl rfl rfl rfl]
  unfold relu
  refine congrArg (max · _) (congrArg (fun f => dense _ _ f h) (funext fun k => ?_))
  exact edge_pay x0 w1 b1 w2 b2 p k

/-- The class weights of a block, at entry (p, j): the class weights of row p. -/
theorem class_pay (x0 : Vec Ideal S1024x512 .f32) (w1 : Vec Ideal S512x512 .f32) (b1 : Vec Ideal S1x512 .f32)
    (w2 : Vec Ideal S512x512 .f32) (b2 : Vec Ideal S1x512 .f32) (w3 : Vec Ideal S512x128 .f32) (b3 : Vec Ideal S1x128 .f32)
    (w4 : Vec Ideal S128x4 .f32) (b4 : Vec Ideal S1x4 .f32) (p : Fin 1024) (j : Fin 4) :
    k0_pay1 (F := Ideal) (k0_pay3 x0 w1 b1 w2 b2 w3 b3) (k0_pay4 w4) (constant S1024x4 .f32 0x00000000#32) b4 (ix2 p j)
      = classRow (Params.ofRows w1 b1 w2 b2 w3 b3 w4 b4) (fun k => x0 (ix2 p k)) j := by
  unfold k0_pay1
  refine (softmax_apply _ p j).trans ?_
  unfold classRow
  refine congrArg (fun f => softmax4 f j) (funext fun c => ?_)
  simp only [shapeCast_self]
  rw [layer_apply _ rfl rfl rfl rfl rfl rfl]
  unfold twoLayer
  refine congrArg (fun f => dense _ _ f c) (funext fun h => ?_)
  exact hidden_pay x0 w1 b1 w2 b2 w3 b3 p h

/-- And the embedded rows of a block in the same terms. -/
theorem edge_pay' (x0 : Vec Ideal S1024x512 .f32) (w1 : Vec Ideal S512x512 .f32) (b1 : Vec Ideal S1x512 .f32)
    (w2 : Vec Ideal S512x512 .f32) (b2 : Vec Ideal S1x512 .f32) (w3 : Vec Ideal S512x128 .f32) (b3 : Vec Ideal S1x128 .f32)
    (w4 : Vec Ideal S128x4 .f32) (b4 : Vec Ideal S1x4 .f32) (p : Fin 1024) (q : Fin 512) :
    k0_pay2 (F := Ideal) x0 w1 b1 w2 b2 (ix2 p q)
      = edgeRow (Params.ofRows w1 b1 w2 b2 w3 b3 w4 b4) (fun k => x0 (ix2 p k)) q :=
  edge_pay x0 w1 b1 w2 b2 p q

end Cert.KernelIdeal.Rows

end
-- ==== Proof.KernelArrays.lean ====
/-
  What the idealized kernel's program leaves in its four results, as functions of its argument arrays.

  Point t of the grid reads rows 1024·t … 1024·t + 1023 of the padded codes and the whole of each parameter array, and
  writes back rows 1024·t … of the two results. So what it writes back is block t of the row maps applied to the padded
  codes; the 88 blocks tile the 90112 rows, and each result array ends as the row maps of the padded codes. The lines after
  the region keep the first 89700 rows, where the padded codes are the codes; stack the four class columns as rows, the
  first as one minus itself; and gate the stack piecewise-linearly.
-/
import proofs.«145546_j84610855731459_1_alg».proof.Proof.RegionIdeal
import proofs.«145546_j84610855731459_1_alg».proof.Proof.KernelRows
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Region Cert.RowMaps

/-! ## The lines after the class weights, composed -/

section Tail
variable {F : FTy → Type} [FloatOps F]

/-- The four class columns stacked as rows, the first as one minus itself. -/
def stackOf (p : (⟨S89700x4, .f32⟩ : BufTy).Contents (Elt F)) : (⟨S4x89700, .f32⟩ : BufTy).Contents (Elt F) :=
  concatenate S4x89700 0 [⟨S1x89700, (broadcastInDim S1x89700 ![1] bcast_S89700_S1x89700_1 (subf (broadcastInDim S89700 ![] bcast_S_S89700 (constant S_ .f32 0x3F800000#32)) (shapeCast _ (extractStridedSlice S89700x1 ![0, 0] p slices_S89700x4_S89700x1_0_0) shapeCasts_S89700x1_S89700)))⟩, ⟨S1x89700, (broadcastInDim S1x89700 ![1] bcast_S89700_S1x89700_1 (shapeCast _ (extractStridedSlice S89700x1 ![0, 1] p slices_S89700x4_S89700x1_0_1) shapeCasts_S89700x1_S89700))⟩, ⟨S1x89700, (broadcastInDim S1x89700 ![1] bcast_S89700_S1x89700_1 (shapeCast _ (extractStridedSlice S89700x1 ![0, 2] p slices_S89700x4_S89700x1_0_2) shapeCasts_S89700x1_S89700))⟩, ⟨S1x89700, (broadcastInDim S1x89700 ![1] bcast_S89700_S1x89700_1 (shapeCast _ (extractStridedSlice S89700x1 ![0, 3] p slices_S89700x4_S89700x1_0_3) shapeCasts_S89700x1_S89700))⟩] concatenates_S1x89700_S1x89700_S1x89700_S1x89700_S4x89700_d0

/-- The gate of the stack: zero at or below 0.025, one at or above 0.4795…, the ramp 2.2·(s − 0.025) between. -/
def gateOf (p : (⟨S89700x4, .f32⟩ : BufTy).Contents (Elt F)) : (⟨S4x89700, .f32⟩ : BufTy).Contents (Elt F) :=
  select (cmpf .ole (stackOf p) (broadcastInDim S4x89700 ![] bcast_S_S4x89700 (constant S_ .f32 0x3CCCCCCD#32))) (broadcastInDim S4x89700 ![] bcast_S_S4x89700 (id (constant S_ .f32 0x00000000#32))) (select (cmpf .oge (stackOf p) (broadcastInDim S4x89700 ![] bcast_S_S4x89700 (constant S_ .f32 0x3EF586FB#32))) (broadcastInDim S4x89700 ![] bcast_S_S4x89700 (id (constant S_ .f32 0x3F800000#32))) (mulf (broadcastInDim S4x89700 ![] bcast_S_S4x89700 (constant S_ .f32 0x400CCCCD#32)) (subf (stackOf p) (broadcastInDim S4x89700 ![] bcast_S_S4x89700 (constant S_ .f32 0x3CCCCCCD#32)))))

/-- The later lines as one list. -/
theorem later_flat : List.flatten (later (F := F)) = hostOps1 ++ hostOps1_1 ++ hostOps1_2 ++ hostOps1_3 := by
  simp only [later, List.flatten_cons, List.flatten_nil, List.append_nil, List.cons_append, List.nil_append, List.append_assoc]

set_option maxHeartbeats 4000000 in
/-- The embedded rows kept: the first 89700 of the padded result. -/
theorem tail_v6 (W : Valuation τ sig (Elt F)) : after (List.flatten (later (F := F))) W (Proc.devRef .tc main_v6)
    = extractStridedSlice S89700x512 ![0, 0] (W (Proc.devRef .tc main_v5_0)) slices_S90112x512_S89700x512_0_0 := by
  simp only [later, hostOps1, hostOps1_1, hostOps1_2, hostOps1_3, List.flatten_cons, List.flatten_nil, List.append_nil, List.cons_append, List.nil_append]
  after_results_simp <;> (try simp only [TRef.ofBuf, TRef.toBuf, cast_eq]) <;> rfl

set_option maxHeartbeats 4000000 in
/-- The class weights kept likewise. -/
theorem tail_v7 (W : Valuation τ sig (Elt F)) : after (List.flatten (later (F := F))) W (Proc.devRef .tc main_v7)
    = extractStridedSlice S89700x4 ![0, 0] (W (Proc.devRef .tc main_v5_1)) slices_S90112x4_S89700x4_0_0 := by
  simp only [later, hostOps1, hostOps1_1, hostOps1_2, hostOps1_3, List.flatten_cons, List.flatten_nil, List.append_nil, List.cons_append, List.nil_append]
  after_results_simp <;> (try simp only [TRef.ofBuf, TRef.toBuf, cast_eq]) <;> rfl

set_option maxHeartbeats 4000000 in
/-- The stack is `stackOf` of the kept class weights. -/
theorem tail_v22 (W : Valuation τ sig (Elt F)) : after (List.flatten (later (F := F))) W (Proc.devRef .tc main_v22)
    = stackOf (extractStridedSlice S89700x4 ![0, 0] (W (Proc.devRef .tc main_v5_1)) slices_S90112x4_S89700x4_0_0) := by
  simp only [later, hostOps1, hostOps1_1, hostOps1_2, hostOps1_3, List.flatten_cons, List.flatten_nil, List.append_nil, List.cons_append, List.nil_append]
  after_results_simp <;> (try simp only [TRef.ofBuf, TRef.toBuf, cast_eq]) <;> rfl

set_option maxHeartbeats 4000000 in
/-- The gated stack is `gateOf` of them. -/
theorem tail_v32 (W : Valuation τ sig (Elt F)) : after (List.flatten (later (F := F))) W (Proc.devRef .tc main_v32)
    = gateOf (extractStridedSlice S89700x4 ![0, 0] (W (Proc.devRef .tc main_v5_1)) slices_S90112x4_S89700x4_0_0) := by
  simp only [later, hostOps1, hostOps1_1, hostOps1_2, hostOps1_3, List.flatten_cons, List.flatten_nil, List.append_nil, List.cons_append, List.nil_append]
  after_results_simp <;> (try simp only [TRef.ofBuf, TRef.toBuf, cast_eq]) <;> rfl

end Tail

variable (m : (ℓ : Loc nD τ sig) → Buf (Elt Ideal) ℓ) (ρ : Dev nD → PrngReg)

/-! ## The printed index maps over the grid -/

theorem hz : (![0, 0] : Fin 2 → Nat) = fun _ => 0 := funext fun a => by fin_cases a <;> rfl

/-- The code rows and both results move one block of rows per point; -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- the parameters' blocks never move. -/
theorem idx_params : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row p of point t's block is row 1024·t + p of the padded arrays. -/
def rowOf (t : Fin cfg0.N) (p : Fin 1024) : Fin 90112 :=
  ⟨t.val * 1024 + p.val, by have := t.isLt; have h : cfg0.N = 88 := N_0; have := p.isLt; omega⟩

theorem emb0 (t : Fin cfg0.N) (p : Fin 1024) (k : Fin 512) :
    ((cfg0.win 0).blk t).view.emb (ix2 p k) = ix2 (rowOf t p) k := by
  obtain ⟨e0, e1, -⟩ := idx_rows t
  funext a; apply Fin.ext
  match a with
  | ⟨0, _⟩ => show win0_0.index t (0 : Fin 2) * 1024 + 1 * p.val = t.val * 1024 + p.val; omega
  | ⟨1, _⟩ => show win0_0.index t (1 : Fin 2) * 512 + 1 * k.val = k.val; omega

theorem emb9 (t : Fin cfg0.N) (p : Fin 1024) (q : Fin 512) :
    ((cfg0.win 9).blk t).view.emb (ix2 p q) = ix2 (rowOf t p) q := by
  obtain ⟨-, -, e0, e1, -⟩ := idx_rows t
  funext a; apply Fin.ext
  match a with
  | ⟨0, _⟩ => show win0_9.index t (0 : Fin 2) * 1024 + 1 * p.val = t.val * 1024 + p.val; omega
  | ⟨1, _⟩ => show win0_9.index t (1 : Fin 2) * 512 + 1 * q.val = q.val; omega

theorem emb10 (t : Fin cfg0.N) (p : Fin 1024) (j : Fin 4) :
    ((cfg0.win 10).blk t).view.emb (ix2 p j) = ix2 (rowOf t p) j := by
  obtain ⟨-, -, -, -, e0, e1⟩ := idx_rows t
  funext a; apply Fin.ext
  match a with
  | ⟨0, _⟩ => show win0_10.index t (0 : Fin 2) * 1024 + 1 * p.val = t.val * 1024 + p.val; omega
  | ⟨1, _⟩ => show win0_10.index t (1 : Fin 2) * 4 + 1 * j.val = j.val; omega

/-! ## The input blocks, read off their arrays -/

/-- Row p of the code block at point t is row 1024·t + p of the padded codes. -/
theorem blk0_apply (c : Dev nD) (t : Fin cfg0.N) (p : Fin 1024) (k : Fin 512) :
    iblk m c 0 t (ix2 p k) = V m c main_v0 (ix2 (rowOf t p) k) := by
  show V m c main_v0 (((cfg0.win 0).blk t).view.emb (ix2 p k)) = _
  rw [emb0]

/-- Parameter window 1's block is its whole array. -/
theorem blk1 (c : Dev nD) (t : Fin cfg0.N) : iblk m c 1 t = V m c main_arg2 := by
  obtain ⟨e0, e1, -⟩ := idx_params t
  funext y
  show V m c main_arg2 (((cfg0.win 1).blk t).view.emb y) = V m c main_arg2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- Parameter window 2's block is its whole array. -/
theorem blk2 (c : Dev nD) (t : Fin cfg0.N) : iblk m c 2 t = V m c main_v1 := by
  obtain ⟨-, -, e0, e1, -⟩ := idx_params t
  funext y
  show V m c main_v1 (((cfg0.win 2).blk t).view.emb y) = V m c main_v1 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Parameter window 3's block is its whole array. -/
theorem blk3 (c : Dev nD) (t : Fin cfg0.N) : iblk m c 3 t = V m c main_arg4 := by
  obtain ⟨-, -, -, -, e0, e1, -⟩ := idx_params t
  funext y
  show V m c main_arg4 (((cfg0.win 3).blk t).view.emb y) = V m c main_arg4 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Parameter window 4's block is its whole array. -/
theorem blk4 (c : Dev nD) (t : Fin cfg0.N) : iblk m c 4 t = V m c main_v2 := by
  obtain ⟨-, -, -, -, -, -, e0, e1, -⟩ := idx_params t
  funext y
  show V m c main_v2 (((cfg0.win 4).blk t).view.emb y) = V m c main_v2 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- Parameter window 5's block is its whole array. -/
theorem blk5 (c : Dev nD) (t : Fin cfg0.N) : iblk m c 5 t = V m c main_arg6 := by
  obtain ⟨-, -, -, -, -, -, -, -, e0, e1, -⟩ := idx_params t
  funext y
  show V m c main_arg6 (((cfg0.win 5).blk t).view.emb y) = V m c main_arg6 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 128 + 1 * (y 1).val = (y 1).val; omega

/-- Parameter window 6's block is its whole array. -/
theorem blk6 (c : Dev nD) (t : Fin cfg0.N) : iblk m c 6 t = V m c main_v3 := by
  obtain ⟨-, -, -, -, -, -, -, -, -, -, e0, e1, -⟩ := idx_params t
  funext y
  show V m c main_v3 (((cfg0.win 6).blk t).view.emb y) = V m c main_v3 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Parameter window 7's block is its whole array. -/
theorem blk7 (c : Dev nD) (t : Fin cfg0.N) : iblk m c 7 t = V m c main_arg8 := by
  obtain ⟨-, -, -, -, -, -, -, -, -, -, -, -, e0, e1, -⟩ := idx_params t
  funext y
  show V m c main_arg8 (((cfg0.win 7).blk t).view.emb y) = V m c main_arg8 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 4 + 1 * (y 1).val = (y 1).val; omega

/-- Parameter window 8's block is its whole array. -/
theorem blk8 (c : Dev nD) (t : Fin cfg0.N) : iblk m c 8 t = V m c main_v4 := by
  obtain ⟨-, -, -, -, -, -, -, -, -, -, -, -, -, -, e0, e1⟩ := idx_params t
  funext y
  show V m c main_v4 (((cfg0.win 8).blk t).view.emb y) = V m c main_v4 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 4 + 1 * (y 1).val = (y 1).val; omega

/-- The parameters as the region finds them. -/
def PV (c : Dev nD) : Params :=
  Params.ofRows (V m c main_arg2) (V m c main_v1) (V m c main_arg4) (V m c main_v2) (V m c main_arg6) (V m c main_v3) (V m c main_arg8) (V m c main_v4)

/-! ## What a point writes back, and the arrays after the run -/

/-- Point t writes back block t of the embeddings of the padded codes. -/
theorem flushed9_eq (c : Dev nD) (t : Fin cfg0.N) :
    (dats m 0 c).flushed 9 t = ((cfg0.win 9).blk t).view.read (Elt Ideal) (edgeOf (PV m c) (V m c main_v0)) := by
  show (cfg0.win 9).cut (grid0.coords t) ((dats m 0 c).after 9 t) = _
  rw [after9]
  unfold edgeOut
  rw [View.canon_unit_zero hz]
  simp only [View.ld_unit_zero (S := S1024x512) hz, View.ld_unit_zero (S := S512x512) hz, View.ld_unit_zero (S := S1x512) hz]
  funext y
  obtain ⟨p, q, rfl⟩ : ∃ (p : Fin 1024) (q : Fin 512), y = ix2 p q := ⟨y 0, y 1, eq_ix2 y⟩
  show k0_pay2 (iblk m c 0 t) (iblk m c 1 t) (iblk m c 2 t) (iblk m c 3 t) (iblk m c 4 t) (ix2 p q)
    = edgeOf (PV m c) (V m c main_v0) (((cfg0.win 9).blk t).view.emb (ix2 p q))
  rw [emb9, blk1 m c t, blk2 m c t, blk3 m c t, blk4 m c t]
  refine (Rows.edge_pay' (iblk m c 0 t) (V m c main_arg2) (V m c main_v1) (V m c main_arg4) (V m c main_v2)
    (V m c main_arg6) (V m c main_v3) (V m c main_arg8) (V m c main_v4) p q).trans ?_
  show edgeRow (PV m c) (fun k => iblk m c 0 t (ix2 p k)) q = edgeRow (PV m c) (fun k => V m c main_v0 (ix2 (rowOf t p) k)) q
  simp only [blk0_apply]

/-- Point t writes back block t of the class weights of the padded codes. -/
theorem flushed10_eq (c : Dev nD) (t : Fin cfg0.N) :
    (dats m 0 c).flushed 10 t = ((cfg0.win 10).blk t).view.read (Elt Ideal) (classOf (PV m c) (V m c main_v0)) := by
  show (cfg0.win 10).cut (grid0.coords t) ((dats m 0 c).after 10 t) = _
  rw [after10]
  unfold classOut
  rw [View.canon_unit_zero hz]
  simp only [View.ld_unit_zero (S := S1024x512) hz, View.ld_unit_zero (S := S512x512) hz, View.ld_unit_zero (S := S1x512) hz,
    View.ld_unit_zero (S := S512x128) hz, View.ld_unit_zero (S := S1x128) hz, View.ld_unit_zero (S := S128x4) hz, View.ld_unit_zero (S := S1x4) hz]
  funext y
  obtain ⟨p, j, rfl⟩ : ∃ (p : Fin 1024) (j : Fin 4), y = ix2 p j := ⟨y 0, y 1, eq_ix2 y⟩
  show k0_pay1 (k0_pay3 (iblk m c 0 t) (iblk m c 1 t) (iblk m c 2 t) (iblk m c 3 t) (iblk m c 4 t) (iblk m c 5 t) (iblk m c 6 t))
      (k0_pay4 (iblk m c 7 t)) (constant S1024x4 .f32 0x00000000#32) (iblk m c 8 t) (ix2 p j)
    = classOf (PV m c) (V m c main_v0) (((cfg0.win 10).blk t).view.emb (ix2 p j))
  rw [emb10, blk1 m c t, blk2 m c t, blk3 m c t, blk4 m c t, blk5 m c t, blk6 m c t, blk7 m c t, blk8 m c t]
  refine (Rows.class_pay (iblk m c 0 t) (V m c main_arg2) (V m c main_v1) (V m c main_arg4) (V m c main_v2)
    (V m c main_arg6) (V m c main_v3) (V m c main_arg8) (V m c main_v4) p j).trans ?_
  show classRow (PV m c) (fun k => iblk m c 0 t (ix2 p k)) j = classRow (PV m c) (fun k => V m c main_v0 (ix2 (rowOf t p) k)) j
  simp only [blk0_apply]

/-- An index of a result array is in point t's block iff each coordinate is in the block's range on its axis. -/
theorem mem_blk9 (t : Fin cfg0.N) (i : S90112x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v5_0).slice (win0_9.rect t)).set ↔ _
  rw [View.set_slice_whole, Rect.mem_set_unit]
  exact Iff.rfl
theorem mem_blk10 (t : Fin cfg0.N) (i : S90112x4.Idx) :
    i ∈ ((cfg0.win 10).blk t).view.set ↔ ∀ a : Fin 2, win0_10.index t a * S1024x4.size a ≤ (i a).val ∧ (i a).val < win0_10.index t a * S1024x4.size a + S1024x4.size a := by
  show i ∈ ((View.whole main_v5_1).slice (win0_10.rect t)).set ↔ _
  rw [View.set_slice_whole, Rect.mem_set_unit]
  exact Iff.rfl

/-- The point whose block holds row r is r / 1024. -/
theorem cover9 (i : S90112x512.Idx) : ∃ t : Fin cfg0.N, (cfg0.win 9).flush t = true ∧ i ∈ ((cfg0.win 9).blk t).view.set := by
  have hi0 : (i 0).val < 90112 := (i 0).isLt
  have hi1 : (i 1).val < 512 := (i 1).isLt
  have hN : cfg0.N = 88 := N_0
  refine ⟨⟨(i 0).val / 1024, by omega⟩, flush0_9 _, ?_⟩
  obtain ⟨-, -, e0, e1, -⟩ := idx_rows ⟨(i 0).val / 1024, by omega⟩
  rw [mem_blk9]
  intro a
  match a with
  | ⟨0, _⟩ => show win0_9.index _ (0 : Fin 2) * 1024 ≤ (i 0).val ∧ (i 0).val < win0_9.index _ (0 : Fin 2) * 1024 + 1024; rw [e0]; show (i 0).val / 1024 * 1024 ≤ _ ∧ _ < (i 0).val / 1024 * 1024 + 1024; omega
  | ⟨1, _⟩ => show win0_9.index _ (1 : Fin 2) * 512 ≤ (i 1).val ∧ (i 1).val < win0_9.index _ (1 : Fin 2) * 512 + 512; rw [e1]; omega
theorem cover10 (i : S90112x4.Idx) : ∃ t : Fin cfg0.N, (cfg0.win 10).flush t = true ∧ i ∈ ((cfg0.win 10).blk t).view.set := by
  have hi0 : (i 0).val < 90112 := (i 0).isLt
  have hi1 : (i 1).val < 4 := (i 1).isLt
  have hN : cfg0.N = 88 := N_0
  refine ⟨⟨(i 0).val / 1024, by omega⟩, flush0_10 _, ?_⟩
  obtain ⟨-, -, -, -, e0, e1⟩ := idx_rows ⟨(i 0).val / 1024, by omega⟩
  rw [mem_blk10]
  intro a
  match a with
  | ⟨0, _⟩ => show win0_10.index _ (0 : Fin 2) * 1024 ≤ (i 0).val ∧ (i 0).val < win0_10.index _ (0 : Fin 2) * 1024 + 1024; rw [e0]; show (i 0).val / 1024 * 1024 ≤ _ ∧ _ < (i 0).val / 1024 * 1024 + 1024; omega
  | ⟨1, _⟩ => show win0_10.index _ (1 : Fin 2) * 4 ≤ (i 1).val ∧ (i 1).val < win0_10.index _ (1 : Fin 2) * 4 + 4; rw [e1]; omega

/-- The padded results after the run. -/
theorem final9 (c : Dev nD) : (dats m 0 c).arrAt 9 cfg0.N = edgeOf (PV m c) (V m c main_v0) :=
  (dats m 0 c).arrAt_eq_of_cover 9 _ (fun t _ => flushed9_eq m c t) cover9
theorem final10 (c : Dev nD) : (dats m 0 c).arrAt 10 cfg0.N = classOf (PV m c) (V m c main_v0) :=
  (dats m 0 c).arrAt_eq_of_cover 10 _ (fun t _ => flushed10_eq m c t) cover10

/-! ## The host lines before the region, read at an index -/

set_option maxHeartbeats 1000000 in
/-- The padded codes: the codes with 412 rows of the converted integer zero below. -/
theorem V_pad (c : Dev nD) : (V m c main_v0 : S90112x512.Idx → EReal)
    = pad S90112x512 ![0, 0] ![412, 0] ![0, 0] (m ((c : Thread nD τ).loc main_arg1)) (sitofp (F := Ideal) .f32 (constantI S_ 32 0#32)) pads_S89700x512_S90112x512_04120_000 h_S_ := by
  dsimp only [V, V0, before]
  simp only [hostOps0, hostOps0_1, hostOps0_2, List.flatten_cons, List.flatten_nil, List.append_nil, List.cons_append, List.nil_append]
  after_results <;> (try simp only [TRef.ofBuf, TRef.toBuf, cast_eq]) <;> rfl

set_option maxHeartbeats 1000000 in
theorem V_bias1 (c : Dev nD) : (V m c main_v1 : S1x512.Idx → EReal) = shapeCast S1x512 (m ((c : Thread nD τ).loc main_arg3)) shapeCasts_S512_S1x512 := by
  dsimp only [V, V0, before]
  simp only [hostOps0, hostOps0_1, hostOps0_2, List.flatten_cons, List.flatten_nil, List.append_nil, List.cons_append, List.nil_append]
  after_results <;> (try simp only [TRef.ofBuf, TRef.toBuf, cast_eq]) <;> rfl
set_option maxHeartbeats 1000000 in
theorem V_bias2 (c : Dev nD) : (V m c main_v2 : S1x512.Idx → EReal) = shapeCast S1x512 (m ((c : Thread nD τ).loc main_arg5)) shapeCasts_S512_S1x512 := by
  dsimp only [V, V0, before]
  simp only [hostOps0, hostOps0_1, hostOps0_2, List.flatten_cons, List.flatten_nil, List.append_nil, List.cons_append, List.nil_append]
  after_results <;> (try simp only [TRef.ofBuf, TRef.toBuf, cast_eq]) <;> rfl
set_option maxHeartbeats 1000000 in
theorem V_bias3 (c : Dev nD) : (V m c main_v3 : S1x128.Idx → EReal) = shapeCast S1x128 (m ((c : Thread nD τ).loc main_arg7)) shapeCasts_S128_S1x128 := by
  dsimp only [V, V0, before]
  simp only [hostOps0, hostOps0_1, hostOps0_2, List.flatten_cons, List.flatten_nil, List.append_nil, List.cons_append, List.nil_append]
  after_results <;> (try simp only [TRef.ofBuf, TRef.toBuf, cast_eq]) <;> rfl
set_option maxHeartbeats 1000000 in
theorem V_bias4 (c : Dev nD) : (V m c main_v4 : S1x4.Idx → EReal) = shapeCast S1x4 (m ((c : Thread nD τ).loc main_arg9)) shapeCasts_S4_S1x4 := by
  dsimp only [V, V0, before]
  simp only [hostOps0, hostOps0_1, hostOps0_2, List.flatten_cons, List.flatten_nil, List.append_nil, List.cons_append, List.nil_append]
  after_results <;> (try simp only [TRef.ofBuf, TRef.toBuf, cast_eq]) <;> rfl

/-- Below row 89700 the padded codes are the codes. -/
theorem pad_row (c : Dev nD) (r : Fin 89700) (k : Fin 512) (r' : Fin 90112) (hr : r'.val = r.val) :
    V m c main_v0 (ix2 r' k) = m ((c : Thread nD τ).loc main_arg1) (ix2 r k) := by
  rw [V_pad]
  refine pad_apply_of_inside _ _ _ _ _ _ _ (ix2 r' k) (ix2 r k) fun a => ?_
  match a with
  | ⟨0, _⟩ => show r'.val = 0 + r.val * (0 + 1); omega
  | ⟨1, _⟩ => show k.val = 0 + k.val * (0 + 1); omega

/-- The parameters the region finds are the argument arrays'. -/
theorem PV_eq (c : Dev nD) : PV m c = (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  unfold PV Params.ofRows Params.ofArgs
  rw [V_main_arg2 m c, V_main_arg4 m c, V_main_arg6 m c, V_main_arg8 m c, V_bias1 m c, V_bias2 m c, V_bias3 m c, V_bias4 m c]
  simp only [shapeCast_a_1a_apply]

/-! ## The results -/

/-- The embedded rows: the embeddings of the codes. -/
theorem edge_kept (c : Dev nD) : extractStridedSlice S89700x512 ![0, 0] ((dats m 0 c).arrAt 9 cfg0.N) slices_S90112x512_S89700x512_0_0
    = edgeOf (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) := by
  rw [final9, PV_eq]
  funext i
  obtain ⟨r, q, rfl⟩ : ∃ (r : Fin 89700) (q : Fin 512), i = ix2 r q := ⟨i 0, i 1, eq_ix2 i⟩
  rw [slice2_axis0_apply 0 _ _ r q ⟨r.val, by have := r.isLt; omega⟩ (by simp)]
  show edgeRow _ (fun k => V m c main_v0 (ix2 ⟨r.val, _⟩ k)) q = edgeRow _ (fun k => m ((c : Thread nD τ).loc main_arg1) (ix2 r k)) q
  refine congrArg (fun f => edgeRow _ f q) (funext fun k => ?_)
  exact pad_row m c r k _ rfl

/-- The class weights of the codes. -/
theorem class_kept (c : Dev nD) : extractStridedSlice S89700x4 ![0, 0] ((dats m 0 c).arrAt 10 cfg0.N) slices_S90112x4_S89700x4_0_0
    = classOf (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) := by
  rw [final10, PV_eq]
  funext i
  obtain ⟨r, j, rfl⟩ : ∃ (r : Fin 89700) (j : Fin 4), i = ix2 r j := ⟨i 0, i 1, eq_ix2 i⟩
  rw [slice2_axis0_apply 0 _ _ r j ⟨r.val, by have := r.isLt; omega⟩ (by simp)]
  show classRow _ (fun k => V m c main_v0 (ix2 ⟨r.val, _⟩ k)) j = classRow _ (fun k => m ((c : Thread nD τ).loc main_arg1) (ix2 r k)) j
  refine congrArg (fun f => classRow _ f j) (funext fun k => ?_)
  exact pad_row m c r k _ rfl

/-- Window w's array after the region, in the valuation the later lines start from. -/
theorem exit_arr (c : Dev nD) (w : Fin 11) :
    Pipeline.withArrays spec0 c (V0 m c) (fun w => (dats m 0 c).arrAt w cfg0.N) (Proc.devRef .tc (Pipeline.arrRef spec0 w)) = (dats m 0 c).arrAt w cfg0.N :=
  Pipeline.withArrays_arr spec0 launch0.win.arr_inj c (V0 m c) (fun w => (dats m 0 c).arrAt w cfg0.N) w

/-- THE RUN, READ: every weakly fair execution of the idealized kernel's @main terminates with the stack, the gated stack,
    the class weights and the embeddings at the row maps of the argument arrays, the arguments unchanged. -/
theorem run : θ_run defs (onTc (τ := τ) (main (F := Ideal))) ⟨m, fun _ => 0, ρ⟩ fun r => ∀ c : Dev nD,
      r.2.mem ((c.tc : Thread nD τ).loc main_v22) = stackOf (classOf (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)))
      ∧ r.2.mem ((c.tc : Thread nD τ).loc main_v32) = gateOf (classOf (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)))
      ∧ r.2.mem ((c.tc : Thread nD τ).loc main_v7) = classOf (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1))
      ∧ r.2.mem ((c.tc : Thread nD τ).loc main_v6) = edgeOf (Params.ofArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v22 (Pipeline.mem_restRefs_of main_v22 (by decide) (by decide))).trans
        ((tail_v22 _).trans (congrArg stackOf ((congrArg (extractStridedSlice S89700x4 ![0, 0] · slices_S90112x4_S89700x4_0_0) (exit_arr m c 10)).trans (class_kept m c)))),
      ((h c).2 main_v32 (Pipeline.mem_restRefs_of main_v32 (by decide) (by decide))).trans
        ((tail_v32 _).trans (congrArg gateOf ((congrArg (extractStridedSlice S89700x4 ![0, 0] · slices_S90112x4_S89700x4_0_0) (exit_arr m c 10)).trans (class_kept m c)))),
      ((h c).2 main_v7 (Pipeline.mem_restRefs_of main_v7 (by decide) (by decide))).trans
        ((tail_v7 _).trans ((congrArg (extractStridedSlice S89700x4 ![0, 0] · slices_S90112x4_S89700x4_0_0) (exit_arr m c 10)).trans (class_kept m c))),
      ((h c).2 main_v6 (Pipeline.mem_restRefs_of main_v6 (by decide) (by decide))).trans
        ((tail_v6 _).trans ((congrArg (extractStridedSlice S89700x512 ![0, 0] · slices_S90112x512_S89700x512_0_0) (exit_arr m c 9)).trans (edge_kept m c))),
      kept_args m (dats m) (A_eq m) r h c⟩)
    (run_main m ρ)

end Cert.KernelIdeal.Arrays

end
-- ==== Proof.RefRows.lean ====
/-
  What the reference computes, read entry by entry at the ideal values.

  The reference applies each layer to all 89700 rows at once: a `dot_general` with the weights, the bias broadcast first to
  one row and then down the rows, a maximum with the broadcast zero. Read at row r these are the row maps of RowMaps, by the
  same two facts as for the kernel: a plain matrix product at an entry is the sum over the contraction index, and a
  broadcast reads its operand. The softmax's two reductions over the four classes are folds over the four entries of the
  row: of max from −∞, and the sum from zero.
-/
import proofs.«145546_j84610855731459_1_alg».proof.Proof.RefRead
import proofs.«145546_j84610855731459_1_alg».proof.Proof.RowMaps
import proofs.«145546_j84610855731459_1_alg».proof.Proof.LibPlainDot
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws

noncomputable section

open scoped BigOperators

namespace Cert.ReferenceIdeal.Rows

open Idealize.ShloMosaic Idealize.ShloMosaic.ValueIdx Cert.ReferenceIdeal Cert.ReferenceIdeal.Gen Cert.ReferenceIdeal.ReadP Cert.RowMaps

/-- A dense layer as the host writes it: the `dot_general` plus the bias broadcast to one row and down the rows, at
    entry (p, q). -/
theorem layer_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (b : FVec Ideal ⟨1, ![N]⟩ .f32)
    (h₁ : (⟨1, ![N]⟩ : Shape).BroadcastsInDim ⟨2, ![1, N]⟩ ![1]) (h₂ : (⟨2, ![1, N]⟩ : Shape).BroadcastsInDim ⟨2, ![M, N]⟩ ![0, 1])
    (p : Fin M) (q : Fin N) :
    addf (Host.dotGeneral d none x w) (broadcastInDim ⟨2, ![M, N]⟩ ![0, 1] h₂ (broadcastInDim ⟨2, ![1, N]⟩ ![1] h₁ b)) (ix2 p q)
      = dense (fun k q => w (ix2 k q)) (fun q => b (ix1 q)) (fun k => x (ix2 p k)) q := by
  rw [addf_apply]
  simp only [Host.dotGeneral]
  rw [Cert.Lib.PlainDot.dotGeneral_apply d hlc hrc hln hrn hlb hrb, broadcastInDim_oneRow_apply]
  show (∑ k : Fin K, x (ix2 p k) * w (ix2 k q)) + _ = (∑ k : Fin K, x (ix2 p k) * w (ix2 k q)) + b (ix1 q)
  refine congrArg (_ + ·) ?_
  exact broadcastInDim_apply ![1] h₁ b (ix2 (0 : Fin 1) q) (ix1 q) fun a => by
    match a with
    | ⟨0, _⟩ =>
      show q.val = if N = 1 then 0 else q.val
      split
      · have := q.isLt; omega
      · rfl

/-- A column broadcast to [a, 1] and then across b columns reads, at (r, j), the column's entry r. -/
theorem column_apply {α : Type} {a b : Nat} (v : (⟨1, ![a]⟩ : Shape).Idx → α)
    (h₁ : (⟨1, ![a]⟩ : Shape).BroadcastsInDim ⟨2, ![a, 1]⟩ ![0]) (h₂ : (⟨2, ![a, 1]⟩ : Shape).BroadcastsInDim ⟨2, ![a, b]⟩ ![0, 1])
    (r : Fin a) (j : Fin b) :
    broadcastInDim ⟨2, ![a, b]⟩ ![0, 1] h₂ (broadcastInDim ⟨2, ![a, 1]⟩ ![0] h₁ v) (ix2 r j) = v (ix1 r) := by
  refine (broadcastInDim_apply ![0, 1] h₂ _ (ix2 r j) (ix2 r (0 : Fin 1)) fun ax => ?_).trans
    (broadcastInDim_apply ![0] h₁ v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-- The class axis of the logits is reduced to give one value per row. -/
theorem reduces14 : S89700x4.Reduces [1] S89700 := by decide

/-- The reduction's inserted index at row r is (r, k). -/
theorem lift_row (r : Fin 89700) (k : Fin 4) : reduces14.lift (ix1 r) k = ix2 r k :=
  funext fun a => Fin.ext (by
    match a with
    | ⟨0, _⟩ => rfl
    | ⟨1, _⟩ => rfl)

/-- The rows' maxima as the host lays them across the four classes: the reduce by max from −∞, once more the max with
    the broadcast −∞, broadcast to a column and across. -/
def maxCols (z : FVec Ideal S89700x4 .f32) : FVec Ideal S89700x4 .f32 :=
  broadcastInDim S89700x4 ![0, 1] bcast_S89700x1_S89700x4_0_1 (broadcastInDim S89700x1 ![0] bcast_S89700_S89700x1_0
    (maximumf (broadcastInDim S89700 ![] bcast_S_S89700 (constant S_ .f32 0xFF800000#32))
      (Host.reduce FloatOps.maximumf z (constant S_ .f32 0xFF800000#32) reducesTo_S89700x4_S89700_d1 h_S_)))

/-- At (r, j) it is row r's maximum. -/
theorem maxCols_apply (z : FVec Ideal S89700x4 .f32) (r : Fin 89700) (j : Fin 4) :
    maxCols z (ix2 r j) = rowMax (fun k => z (ix2 r k)) := by
  unfold maxCols
  rw [column_apply, maximumf_apply, broadcastInDim_scalar_apply]
  unfold rowMax
  show max (Ideal.ofBits .f32 0xFF800000#32) _ = _
  refine congrArg (max _) ?_
  refine (Host.reduce_eq_fold_single _ z _ reducesTo_S89700x4_S89700_d1 reduces14 h_S_ (ix1 r)).trans ?_
  show (Finset.univ : Finset (Fin 4)).fold max (Ideal.ofBits .f32 0xFF800000#32) (z ∘ reduces14.lift (ix1 r)) = _
  exact congrArg (Finset.fold max _ · Finset.univ) (funext fun k => congrArg z (lift_row r k))

/-- The host's softmax over the logits, at entry (r, j): the softmax of row r. -/
theorem softmax_apply (z : FVec Ideal S89700x4 .f32) (r : Fin 89700) (j : Fin 4) :
    Host.divf (Host.exp (subf z (maxCols z)))
        (broadcastInDim S89700x4 ![0, 1] bcast_S89700x1_S89700x4_0_1 (broadcastInDim S89700x1 ![0] bcast_S89700_S89700x1_0
          (Host.reduceAdd (Host.exp (subf z (maxCols z))) (constant S_ .f32 0x00000000#32) reducesTo_S89700x4_S89700_d1 h_S_))) (ix2 r j)
      = softmax4 (fun k => z (ix2 r k)) j := by
  refine (hostDivf_apply _ _ _).trans ?_
  rw [column_apply, hostReduceAdd_apply]
  refine (congrArg (Ideal.div _) (Ideal.hostReduceAdd_single reducesTo_S89700x4_S89700_d1 reduces14 _ _ (ix1 r))).trans ?_
  unfold softmax4
  have hE : ∀ k : Fin 4, Host.exp (subf z (maxCols z)) (reduces14.lift (ix1 r) k)
      = Ideal.exp (z (ix2 r k) - rowMax fun k => z (ix2 r k)) := fun k => by
    refine (congrArg (Host.exp (subf z (maxCols z))) (lift_row r k)).trans ?_
    show Ideal.exp (z (ix2 r k) - maxCols z (ix2 r k)) = _
    rw [maxCols_apply]
  refine congrArg₂ Ideal.div (show Ideal.exp (z (ix2 r j) - maxCols z (ix2 r j)) = _ by rw [maxCols_apply]) ?_
  show Ideal.ofBits .f32 0x00000000#32 + _ = _
  rw [Ideal.ofBits_zero_f32, zero_add]
  exact Finset.sum_congr rfl fun k _ => hE k

/-- The embedding stage at entry (r, q): the first two-layer map of code row r. -/
theorem edge_stage (x1 : (⟨S89700x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (r : Fin 89700) (q : Fin 512) :
    val_main_v8 (F := Ideal) x1 x2 x3 x4 x5 (ix2 r q) = twoLayer (fun k q => x2 (ix2 k q)) (fun q => x3 (ix1 q)) (fun k q => x4 (ix2 k q)) (fun q => x5 (ix1 q)) (fun k => x1 (ix2 r k)) q := by
  unfold val_main_v8 val_main_v7 val_main_v6 val_main_v5 val_main_v4 val_main_call0_v0 val_main_call0_cst val_main_v3 val_main_v2 val_main_v1 val_main_v0
  rw [layer_apply _ rfl rfl rfl rfl rfl rfl]
  unfold twoLayer
  refine congrArg (fun f => dense _ _ f q) (funext fun h => ?_)
  rw [maximumf_apply, layer_apply _ rfl rfl rfl rfl rfl rfl, broadcastInDim_scalar_apply]
  rfl

/-- The logits stage at entry (r, j). -/
theorem logit_stage (x1 : (⟨S89700x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x4, .f32⟩ : BufTy).Contents (Elt Ideal)) (x9 : (⟨S4, .f32⟩ : BufTy).Contents (Elt Ideal)) (r : Fin 89700) (j : Fin 4) :
    val_main_v17 (F := Ideal) x1 x2 x3 x4 x5 x6 x7 x8 x9 (ix2 r j)
      = dense (fun k q => x8 (ix2 k q)) (fun q => x9 (ix1 q)) (fun h => relu (dense (fun k q => x6 (ix2 k q)) (fun q => x7 (ix1 q)) (twoLayer (fun k q => x2 (ix2 k q)) (fun q => x3 (ix1 q)) (fun k q => x4 (ix2 k q)) (fun q => x5 (ix1 q)) (fun k => x1 (ix2 r k))) h)) j := by
  unfold val_main_v17 val_main_v16 val_main_v15 val_main_v14 val_main_v13 val_main_call1_v0 val_main_call1_cst val_main_v12 val_main_v11 val_main_v10 val_main_v9
  rw [layer_apply _ rfl rfl rfl rfl rfl rfl]
  refine congrArg (fun f => dense _ _ f j) (funext fun h => ?_)
  rw [maximumf_apply, layer_apply _ rfl rfl rfl rfl rfl rfl, broadcastInDim_scalar_apply]
  unfold relu
  refine congrArg (max · _) (congrArg (fun f => dense _ _ f h) (funext fun k => ?_))
  exact edge_stage x1 x2 x3 x4 x5 r k

/-- The class weights' stage at entry (r, j): the class weights of code row r. -/
theorem class_stage (x1 : (⟨S89700x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x4, .f32⟩ : BufTy).Contents (Elt Ideal)) (x9 : (⟨S4, .f32⟩ : BufTy).Contents (Elt Ideal)) (r : Fin 89700) (j : Fin 4) :
    val_main_v28 (F := Ideal) x1 x2 x3 x4 x5 x6 x7 x8 x9 (ix2 r j)
      = classRow (Params.ofArgs x2 x3 x4 x5 x6 x7 x8 x9) (fun k => x1 (ix2 r k)) j := by
  unfold val_main_v28 val_main_v27 val_main_v26 val_main_v25 val_main_cst_1 val_main_v24 val_main_v23 val_main_v22 val_main_v21 val_main_v20 val_main_v19 val_main_cst_0 val_main_v18 val_main_cst
  refine (softmax_apply (val_main_v17 (F := Ideal) x1 x2 x3 x4 x5 x6 x7 x8 x9) r j).trans ?_
  refine congrArg (fun f => softmax4 f j) (funext fun c => ?_)
  exact logit_stage x1 x2 x3 x4 x5 x6 x7 x8 x9 r c

/-- The embeddings' array: the row maps of the codes. -/
theorem edge_eq (x1 : (⟨S89700x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x4, .f32⟩ : BufTy).Contents (Elt Ideal)) (x9 : (⟨S4, .f32⟩ : BufTy).Contents (Elt Ideal)) : val_main_v8 (F := Ideal) x1 x2 x3 x4 x5 = edgeOf (Params.ofArgs x2 x3 x4 x5 x6 x7 x8 x9) x1 := by
  funext i
  obtain ⟨r, q, rfl⟩ : ∃ (r : Fin 89700) (q : Fin 512), i = ix2 r q := ⟨i 0, i 1, eq_ix2 i⟩
  exact edge_stage x1 x2 x3 x4 x5 r q

/-- The class weights' array likewise. -/
theorem class_eq (x1 : (⟨S89700x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x4, .f32⟩ : BufTy).Contents (Elt Ideal)) (x9 : (⟨S4, .f32⟩ : BufTy).Contents (Elt Ideal)) : val_main_v28 (F := Ideal) x1 x2 x3 x4 x5 x6 x7 x8 x9 = classOf (Params.ofArgs x2 x3 x4 x5 x6 x7 x8 x9) x1 := by
  funext i
  obtain ⟨r, j, rfl⟩ : ∃ (r : Fin 89700) (j : Fin 4), i = ix2 r j := ⟨i 0, i 1, eq_ix2 i⟩
  exact class_stage x1 x2 x3 x4 x5 x6 x7 x8 x9 r j

end Cert.ReferenceIdeal.Rows

end
-- ==== Proof.lean ====
/-
  The kernel and its reference compute the same four arrays from the same ten arguments, over the extended reals.

  Both programs send each of the 89700 code rows through a dense layer, a ReLU and a dense layer (the edge embedding), then
  through a second such pair and a softmax over four classes (the class weights); stack the four class columns as rows,
  the first as one minus itself; and gate the stack by a piecewise-linear ramp. The kernel does the row maps inside one
  pallas_call, 1024 rows at a point over a grid of 88, on the codes padded to 90112 rows, with the weights converted to bf16
  (the identity on exact values) and the matrix products accumulated into zero; the reference does them on whole arrays.
  At the ideal values a matrix product into a zero accumulator and the host's dot_general are the same sum, a lane reduction
  and the host's reduce the same fold, and the rows are independent, so each kept row of the kernel's results is the
  reference's row: no law beyond the definitions is used, and finiteness of the inputs is not needed.
  The lines after the class weights are the same thirty-six host operations in both programs, so they are carried as one
  function of the class weights and never opened.

  Each program runs to the end, faults nowhere and leaves its arguments as launched: the two kernel programs by the launch
  of their region around the body's run (the same text read at the word level and at the ideal values), the reference by
  its run read back. The idealization rewrote no operation, so there is nothing to preserve.
-/
import proofs.«145546_j84610855731459_1_alg».proof.Defs
import proofs.«145546_j84610855731459_1_alg».proof.Proof.Gen.Kernel
import proofs.«145546_j84610855731459_1_alg».proof.Proof.Gen.KernelIdeal
import proofs.«145546_j84610855731459_1_alg».proof.Proof.Gen.ReferenceIdeal
import proofs.«145546_j84610855731459_1_alg».proof.Proof.Gen.Pre_finite_inputs
import proofs.«145546_j84610855731459_1_alg».proof.Proof.RegionBits
import proofs.«145546_j84610855731459_1_alg».proof.Proof.KernelArrays
import proofs.«145546_j84610855731459_1_alg».proof.Proof.RefRows
import Idealize.ShloMosaic.Adequacy
import Idealize.ShloMosaic.Init

noncomputable section

namespace Cert.Proof

open Idealize.ShloMosaic Idealize.ShloMosaic.TcCoe Idealize.SL.Sem Cert.RowMaps

/-! ## The frames -/

theorem frame_kernel : Cert.frame_Kernel := fun m ρ _ => Cert.Kernel.Region.frame m ρ
theorem frame_kernelIdeal : Cert.frame_KernelIdeal := fun m ρ _ => Cert.KernelIdeal.Region.frame m ρ
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-! ## The lines after the class weights are one function in both programs -/

theorem stack_same {F : FTy → Type} [FloatOps F] :
    Cert.ReferenceIdeal.ValueP.stackOf (F := F) = Cert.KernelIdeal.Arrays.stackOf (F := F) := rfl
theorem gate_same {F : FTy → Type} [FloatOps F] :
    Cert.ReferenceIdeal.ValueP.gateOf (F := F) = Cert.KernelIdeal.Arrays.gateOf (F := F) := rfl

/-! ## The results agree -/

/-- From memories agreeing on the arguments, the idealized kernel ends with its four results at the row maps of its
    arguments, and the reference with its four at the same row maps of its own, which are the same arrays. -/
theorem algebraic : Cert.algebraic_KernelIdeal_ReferenceIdeal := by
  intro m ρ m' ρ' _ hagree
  refine ⟨_, _, _, _, Cert.KernelIdeal.Arrays.run m ρ, ?_⟩
  refine (θ_run Cert.ReferenceIdeal.defs _ _).mono (fun r h c => ?_) (Cert.ReferenceIdeal.ValueP.run (F := Ideal) m' ρ')
  obtain ⟨h43, h53, h28, h8, hargs⟩ := h c
  obtain ⟨a0, a1, a2, a3, a4, a5, a6, a7, a8, a9⟩ := hagree c
  have e28 := (Cert.ReferenceIdeal.ReadP.val_main_v28_eq (F := Ideal) m' c).trans (Cert.ReferenceIdeal.Rows.class_eq _ _ _ _ _ _ _ _ _)
  have e8 := h8.trans <| (Cert.ReferenceIdeal.ReadP.val_main_v8_eq (F := Ideal) _ _ _ _ _).trans
    (Cert.ReferenceIdeal.Rows.edge_eq _ _ _ _ _
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)))
  rw [a1, a2, a3, a4, a5, a6, a7, a8, a9] at e28 e8
  exact ⟨h43.trans ((congrFun stack_same _).trans (congrArg Cert.KernelIdeal.Arrays.stackOf e28)),
    h53.trans ((congrFun gate_same _).trans (congrArg Cert.KernelIdeal.Arrays.gateOf e28)),
    h28.trans e28, e8, hargs⟩

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
